-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x300000 : Shape := ⟨2, ![2, 300000]⟩
abbrev S1x300000 : Shape := ⟨2, ![1, 300000]⟩
abbrev S256x512 : Shape := ⟨2, ![256, 512]⟩
abbrev S500x256 : Shape := ⟨2, ![500, 256]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S500x256 : S_.BroadcastsInDim S500x256 (![] : Fin 0 → Fin S500x256.rank)
  reducesTo_S500x256_S_d0_1 : S500x256.ReducesTo [0, 1] S_
  bcast_S_S1x300000 : S_.BroadcastsInDim S1x300000 (![] : Fin 0 → Fin S1x300000.rank)
  reducesTo_S1x300000_S_d0_1 : S1x300000.ReducesTo [0, 1] S_

variable [Facts]

def fn_part1 {F : FTy → Type} [FloatOps F] (main_arg2 : IVec S1x300000 32) (main_v13 : IVec S_ 1) (main_v15 : IVec S1x300000 1) (main_c_5 : IVec S_ 1) : IVec S_ 1 :=
  let main_v16 : IVec S_ 1 := (fun x v => Host.reduce IntOp.andi x v reducesTo_S1x300000_S_d0_1 h_S_) main_v15 main_c_5
  let main_v17 : IVec S_ 1 := andi main_v13 main_v16
  let main_c_6 : IVec S_ 32 := constantI S_ 32 500#32
  let main_v18 : IVec S1x300000 32 := broadcastInDim S1x300000 ![] bcast_S_S1x300000 main_c_6
  let main_v19 : IVec S1x300000 1 := cmpi .slt main_arg2 main_v18
  let main_c_7 : IVec S_ 1 := constantI S_ 1 1#1
  let main_v20 : IVec S_ 1 := (fun x v => Host.reduce IntOp.andi x v reducesTo_S1x300000_S_d0_1 h_S_) main_v19 main_c_7
  let main_v21 : IVec S_ 1 := andi main_v17 main_v20
  main_v21

def fn {F : FTy → Type} [FloatOps F] (main_arg0 : FVec F S100000x512 .f32) (main_arg1 : IVec S2x300000 32) (main_arg2 : IVec S1x300000 32) (main_arg3 : FVec F S256x512 .f32) (main_arg4 : FVec F S500x256 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S256x512 .f32 := Host.absf main_arg3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S500x256 .f32 := Host.absf main_arg4
  let main_cst_2 : FVec F S_ .f32 := constant S_ .f32 0x7F800000#32
  let main_v10 : FVec F S500x256 .f32 := broadcastInDim S500x256 ![] bcast_S_S500x256 main_cst_2
  let main_v11 : IVec S500x256 1 := cmpf .olt main_v9 main_v10
  let main_c_3 : IVec S_ 1 := constantI S_ 1 1#1
  let main_v12 : IVec S_ 1 := (fun x v => Host.reduce IntOp.andi x v reducesTo_S500x256_S_d0_1 h_S_) main_v11 main_c_3
  let main_v13 : IVec S_ 1 := andi main_v8 main_v12
  let main_c_4 : IVec S_ 32 := constantI S_ 32 0#32
  let main_v14 : IVec S1x300000 32 := broadcastInDim S1x300000 ![] bcast_S_S1x300000 main_c_4
  let main_v15 : IVec S1x300000 1 := cmpi .sge main_arg2 main_v14
  let main_c_5 : IVec S_ 1 := constantI S_ 1 1#1
  fn_part1 (F := F) main_arg2 main_v13 main_v15 main_c_5
-- ==== Kernel.lean ====
abbrev S100000x512 : Shape := ⟨2, ![100000, 512]⟩
abbrev S2x300000 : Shape := ⟨2, ![2, 300000]⟩
abbrev S1x300000 : Shape := ⟨2, ![1, 300000]⟩
abbrev S256x512 : Shape := ⟨2, ![256, 512]⟩
abbrev S500x256 : Shape := ⟨2, ![500, 256]⟩
abbrev S512x256 : Shape := ⟨2, ![512, 256]⟩
abbrev S100000x256 : Shape := ⟨2, ![100000, 256]⟩
abbrev S2000x512 : Shape := ⟨2, ![2000, 512]⟩
abbrev S2000x256 : Shape := ⟨2, ![2000, 256]⟩
abbrev S300000 : Shape := ⟨1, ![300000]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S300000x256 : Shape := ⟨2, ![300000, 256]⟩
abbrev S301056x256 : Shape := ⟨2, ![301056, 256]⟩
abbrev S301056 : Shape := ⟨1, ![301056]⟩
abbrev S301056x1 : Shape := ⟨2, ![301056, 1]⟩
abbrev S256x500 : Shape := ⟨2, ![256, 500]⟩
abbrev S2048x256 : Shape := ⟨2, ![2048, 256]⟩
abbrev S2048x1 : Shape := ⟨2, ![2048, 1]⟩
abbrev S2048x500 : Shape := ⟨2, ![2048, 500]⟩
abbrev S2048 : Shape := ⟨1, ![2048]⟩

abbrev nBuf : Space → Nat
  | .hbm => 71
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S2x300000, .i32⟩
  | .hbm, ⟨2, _⟩ => ⟨S1x300000, .i32⟩
  | .hbm, ⟨3, _⟩ => ⟨S256x512, .f32⟩
  | .hbm, ⟨4, _⟩ => ⟨S500x256, .f32⟩
  | .hbm, ⟨5, _⟩ => ⟨S512x256, .f32⟩
  | .hbm, ⟨6, _⟩ => ⟨S100000x256, .f32⟩
  | .hbm, ⟨7, _⟩ => ⟨S1x300000, .i32⟩
  | .hbm, ⟨8, _⟩ => ⟨S300000, .i32⟩
  | .hbm, ⟨9, _⟩ => ⟨S1x300000, .i32⟩
  | .hbm, ⟨10, _⟩ => ⟨S300000, .i32⟩
  | .hbm, ⟨11, _⟩ => ⟨S_, .i32⟩
  | .hbm, ⟨12, _⟩ => ⟨S300000, .i32⟩
  | .hbm, ⟨13, _⟩ => ⟨S300000, .i1⟩
  | .hbm, ⟨14, _⟩ => ⟨S_, .i32⟩
  | .hbm, ⟨15, _⟩ => ⟨S300000, .i32⟩
  | .hbm, ⟨16, _⟩ => ⟨S300000, .i32⟩
  | .hbm, ⟨17, _⟩ => ⟨S300000, .i32⟩
  | .hbm, ⟨18, _⟩ => ⟨S300000x1, .i32⟩
  | .hbm, ⟨19, _⟩ => ⟨S1, .i32⟩
  | .hbm, ⟨20, _⟩ => ⟨S_, .i32⟩
  | .hbm, ⟨21, _⟩ => ⟨S300000x1, .i32⟩
  | .hbm, ⟨22, _⟩ => ⟨S300000x1, .i1⟩
  | .hbm, ⟨23, _⟩ => ⟨S1x1, .i32⟩
  | .hbm, ⟨24, _⟩ => ⟨S300000x1, .i32⟩
  | .hbm, ⟨25, _⟩ => ⟨S300000x1, .i1⟩
  | .hbm, ⟨26, _⟩ => ⟨S300000x1, .i1⟩
  | .hbm, ⟨27, _⟩ => ⟨S_, .i1⟩
  | .hbm, ⟨28, _⟩ => ⟨S300000, .i1⟩
  | .hbm, ⟨29, _⟩ => ⟨S300000x256, .f32⟩
  | .hbm, ⟨30, _⟩ => ⟨S300000x256, .i1⟩
  | .hbm, ⟨31, _⟩ => ⟨S_, .f32⟩
  | .hbm, ⟨32, _⟩ => ⟨S300000x256, .f32⟩
  | .hbm, ⟨33, _⟩ => ⟨S300000x256, .f32⟩
  | .hbm, ⟨34, _⟩ => ⟨S_, .i32⟩
  | .hbm, ⟨35, _⟩ => ⟨S300000, .i32⟩
  | .hbm, ⟨36, _⟩ => ⟨S300000, .i1⟩
  | .hbm, ⟨37, _⟩ => ⟨S_, .i32⟩
  | .hbm, ⟨38, _⟩ => ⟨S300000, .i32⟩
  | .hbm, ⟨39, _⟩ => ⟨S300000, .i32⟩
  | .hbm, ⟨40, _⟩ => ⟨S300000, .i32⟩
  | .hbm, ⟨41, _⟩ => ⟨S300000x1, .i32⟩
  | .hbm, ⟨42, _⟩ => ⟨S1, .i32⟩
  | .hbm, ⟨43, _⟩ => ⟨S_, .i32⟩
  | .hbm, ⟨44, _⟩ => ⟨S300000x1, .i32⟩
  | .hbm, ⟨45, _⟩ => ⟨S300000x1, .i1⟩
  | .hbm, ⟨46, _⟩ => ⟨S1x1, .i32⟩
  | .hbm, ⟨47, _⟩ => ⟨S300000x1, .i32⟩
  | .hbm, ⟨48, _⟩ => ⟨S300000x1, .i1⟩
  | .hbm, ⟨49, _⟩ => ⟨S300000x1, .i1⟩
  | .hbm, ⟨50, _⟩ => ⟨S_, .i1⟩
  | .hbm, ⟨51, _⟩ => ⟨S300000, .i1⟩
  | .hbm, ⟨52, _⟩ => ⟨S300000x256, .f32⟩
  | .hbm, ⟨53, _⟩ => ⟨S300000x256, .i1⟩
  | .hbm, ⟨54, _⟩ => ⟨S_, .f32⟩
  | .hbm, ⟨55, _⟩ => ⟨S300000x256, .f32⟩
  | .hbm, ⟨56, _⟩ => ⟨S300000x256, .f32⟩
  | .hbm, ⟨57, _⟩ => ⟨S300000x256, .f32⟩
  | .hbm, ⟨58, _⟩ => ⟨S300000, .i32⟩
  | .hbm, ⟨59, _⟩ => ⟨S_, .i32⟩
  | .hbm, ⟨60, _⟩ => ⟨S_, .f32⟩
  | .hbm, ⟨61, _⟩ => ⟨S301056x256, .f32⟩
  | .hbm, ⟨62, _⟩ => ⟨S_, .i32⟩
  | .hbm, ⟨63, _⟩ => ⟨S_, .i32⟩
  | .hbm, ⟨64, _⟩ => ⟨S301056, .i32⟩
  | .hbm, ⟨65, _⟩ => ⟨S301056x1, .i32⟩
  | .hbm, ⟨66, _⟩ => ⟨S256x500, .f32⟩
  | .hbm, ⟨67, _⟩ => ⟨S301056x1, .f32⟩
  | .hbm, ⟨68, _⟩ => ⟨S300000x1, .f32⟩
  | .hbm, ⟨69, _⟩ => ⟨S300000, .f32⟩
  | .hbm, ⟨70, _⟩ => ⟨S1x300000, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2048x256, .f32⟩
  | .local _ .vmem, ⟨6, _⟩ => ⟨S2048x256, .f32⟩
  | .local _ .vmem, ⟨7, _⟩ => ⟨S256x500, .f32⟩
  | .local _ .vmem, ⟨8, _⟩ => ⟨S2048x1, .i32⟩
  | .local _ .vmem, ⟨9, _⟩ => ⟨S2048x1, .i32⟩
  | .local _ .vmem, ⟨10, _⟩ => ⟨S2048x1, .f32⟩
  | .local _ .vmem, ⟨11, _⟩ => ⟨S2048x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_c : Ref sig .tc := ⟨.hbm, 59, rfl⟩
abbrev main_call2_v0 : Ref sig .tc := ⟨.hbm, 60, rfl⟩
abbrev main_v10 : Ref sig .tc := ⟨.hbm, 61, rfl⟩
abbrev main_c_0 : Ref sig .tc := ⟨.hbm, 62, rfl⟩
abbrev main_call3_v0 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![147], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x500 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S256x512_S512x256_1_0 : S256x512.Transposes [1, 0] S512x256
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  pads_S300000x256_S301056x256_010560_000 : S300000x256.Pads (![0, 0] : Fin 2 → Nat) ![1056, 0] ![0, 0] S301056x256
  pads_S300000_S301056_010560 : S300000.Pads (![0] : Fin 1 → Nat) ![1056] ![0] S301056
  shapeCasts_S301056_S301056x1 : S301056.ShapeCasts S301056x1
  transposes_S500x256_S256x500_1_0 : S500x256.Transposes [1, 0] S256x500
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x500_S256x500_0_0 : ∀ a, (![0, 0] : Fin 2 → Nat) a + S256x500.size a ≤ S256x500.size a
  h_S256x500 : 0 < S256x500.numel
  shapeCasts_S256x500_S256x500 : S256x500.ShapeCasts S256x500
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x500_d1_w32 : S2048x500.Iotas .tc 32 [1]
  broadcasts_S2048x1_S2048x500 : S2048x1.Broadcasts S2048x500
  reduces_S2048x500_S2048 : S2048x500.Reduces [1] S2048
  shapeCasts_S2048_S2048x1 : S2048.ShapeCasts S2048x1
  slices_S301056x1_S300000x1_0_0 : S301056x1.Slices ![0, 0] S300000x1
  shapeCasts_S300000x1_S300000 : S300000x1.ShapeCasts S300000
  shapeCasts_S300000_S1x300000 : S300000.ShapeCasts S1x300000
  dot_S2000x512_S512x256_S2000x256_1_0_0_1_n_n_wf : DotDims.WF S2000x512 S512x256 S2000x256 [1] [0] [0] [1] [] []
  gather_S100000x256_S300000x1_S300000x256_1_0_n_n_0_1_1256_wf : GatherDims.WF S100000x256 S300000x1 S300000x256 [1] [0] [] [0] [] 1 ![1, 256]
  dot_S2048x256_S256x500_S2048x500_1_0_0_1_n_n_wf : DotDims.WF S2048x256 S256x500 S2048x500 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S301056x256.size a
  hwx1_0 : ∀ i : grid1.Coords, EltTy.bits .f32 = 32 ∨ (Rect.block (s := S301056x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x500.size a ≤ S256x500.size a
  hwx1_1 : ∀ i : grid1.Coords, EltTy.bits .f32 = 32 ∨ (Rect.block (s := S256x500) S256x500.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S301056x1.size a
  hwx1_2 : ∀ i : grid1.Coords, EltTy.bits .i32 = 32 ∨ (Rect.block (s := S301056x1) S2048x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S301056x1.size a
  hwx1_3 : ∀ i : grid1.Coords, EltTy.bits .f32 = 32 ∨ (Rect.block (s := S301056x1) S2048x1.size (cc1_transform_3 i) (hinb1_3 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S2048x256_S256x500_S2048x500_1_0_0_1_n_n : DotDims S2048x256 S256x500 S2048x500 where
  lhsContracting := [1]
  rhsContracting := [0]
  lhsNonContracting := [0]
  rhsNonContracting := [1]
  lhsBatch := []
  rhsBatch := []
  wf := dot_S2048x256_S256x500_S2048x500_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S256x500.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x300000 : Shape := ⟨2, ![2, 300000]⟩
abbrev S1x300000 : Shape := ⟨2, ![1, 300000]⟩
abbrev S256x512 : Shape := ⟨2, ![256, 512]⟩
abbrev S500x256 : Shape := ⟨2, ![500, 256]⟩
abbrev S100000x256 : Shape := ⟨2, ![100000, 256]⟩
abbrev S300000 : Shape := ⟨1, ![300000]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S300000x256 : Shape := ⟨2, ![300000, 256]⟩
abbrev S300000x500 : Shape := ⟨2, ![300000, 500]⟩
abbrev S300000x2 : Shape := ⟨2, ![300000, 2]⟩

abbrev nBuf : Space → Nat
  | .hbm => 79
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x300000, .i32⟩
  | .hbm, ⟨2, _⟩ => ⟨S1x300000, .i32⟩
  | .hbm, ⟨3, _⟩ => ⟨S256x512, .f32⟩
  | .hbm, ⟨4, _⟩ => ⟨S500x256, .f32⟩
  | .hbm, ⟨5, _⟩ => ⟨S100000x256, .f32⟩
  | .hbm, ⟨6, _⟩ => ⟨S1x300000, .i32⟩
  | .hbm, ⟨7, _⟩ => ⟨S300000, .i32⟩
  | .hbm, ⟨8, _⟩ => ⟨S_, .i32⟩
  | .hbm, ⟨9, _⟩ => ⟨S300000, .i32⟩
  | .hbm, ⟨10, _⟩ => ⟨S300000, .i1⟩
  | .hbm, ⟨11, _⟩ => ⟨S_, .i32⟩
  | .hbm, ⟨12, _⟩ => ⟨S300000, .i32⟩
  | .hbm, ⟨13, _⟩ => ⟨S300000, .i32⟩
  | .hbm, ⟨14, _⟩ => ⟨S300000, .i32⟩
  | .hbm, ⟨15, _⟩ => ⟨S300000x1, .i32⟩
  | .hbm, ⟨16, _⟩ => ⟨S1, .i32⟩
  | .hbm, ⟨17, _⟩ => ⟨S_, .i32⟩
  | .hbm, ⟨18, _⟩ => ⟨S300000x1, .i32⟩
  | .hbm, ⟨19, _⟩ => ⟨S300000x1, .i1⟩
  | .hbm, ⟨20, _⟩ => ⟨S1x1, .i32⟩
  | .hbm, ⟨21, _⟩ => ⟨S300000x1, .i32⟩
  | .hbm, ⟨22, _⟩ => ⟨S300000x1, .i1⟩
  | .hbm, ⟨23, _⟩ => ⟨S300000x1, .i1⟩
  | .hbm, ⟨24, _⟩ => ⟨S_, .i1⟩
  | .hbm, ⟨25, _⟩ => ⟨S300000, .i1⟩
  | .hbm, ⟨26, _⟩ => ⟨S300000x256, .f32⟩
  | .hbm, ⟨27, _⟩ => ⟨S300000x256, .i1⟩
  | .hbm, ⟨28, _⟩ => ⟨S_, .f32⟩
  | .hbm, ⟨29, _⟩ => ⟨S300000x256, .f32⟩
  | .hbm, ⟨30, _⟩ => ⟨S300000x256, .f32⟩
  | .hbm, ⟨31, _⟩ => ⟨S1x300000, .i32⟩
  | .hbm, ⟨32, _⟩ => ⟨S300000, .i32⟩
  | .hbm, ⟨33, _⟩ => ⟨S_, .i32⟩
  | .hbm, ⟨34, _⟩ => ⟨S300000, .i32⟩
  | .hbm, ⟨35, _⟩ => ⟨S300000, .i1⟩
  | .hbm, ⟨36, _⟩ => ⟨S_, .i32⟩
  | .hbm, ⟨37, _⟩ => ⟨S300000, .i32⟩
  | .hbm, ⟨38, _⟩ => ⟨S300000, .i32⟩
  | .hbm, ⟨39, _⟩ => ⟨S300000, .i32⟩
  | .hbm, ⟨40, _⟩ => ⟨S300000x1, .i32⟩
  | .hbm, ⟨41, _⟩ => ⟨S1, .i32⟩
  | .hbm, ⟨42, _⟩ => ⟨S_, .i32⟩
  | .hbm, ⟨43, _⟩ => ⟨S300000x1, .i32⟩
  | .hbm, ⟨44, _⟩ => ⟨S300000x1, .i1⟩
  | .hbm, ⟨45, _⟩ => ⟨S1x1, .i32⟩
  | .hbm, ⟨46, _⟩ => ⟨S300000x1, .i32⟩
  | .hbm, ⟨47, _⟩ => ⟨S300000x1, .i1⟩
  | .hbm, ⟨48, _⟩ => ⟨S300000x1, .i1⟩
  | .hbm, ⟨49, _⟩ => ⟨S_, .i1⟩
  | .hbm, ⟨50, _⟩ => ⟨S300000, .i1⟩
  | .hbm, ⟨51, _⟩ => ⟨S300000x256, .f32⟩
  | .hbm, ⟨52, _⟩ => ⟨S300000x256, .i1⟩
  | .hbm, ⟨53, _⟩ => ⟨S_, .f32⟩
  | .hbm, ⟨54, _⟩ => ⟨S300000x256, .f32⟩
  | .hbm, ⟨55, _⟩ => ⟨S300000x256, .f32⟩
  | .hbm, ⟨56, _⟩ => ⟨S300000x256, .f32⟩
  | .hbm, ⟨57, _⟩ => ⟨S300000x500, .f32⟩
  | .hbm, ⟨58, _⟩ => ⟨S300000, .i32⟩
  | .hbm, ⟨59, _⟩ => ⟨S300000, .i32⟩
  | .hbm, ⟨60, _⟩ => ⟨S_, .i32⟩
  | .hbm, ⟨61, _⟩ => ⟨S300000, .i32⟩
  | .hbm, ⟨62, _⟩ => ⟨S300000, .i1⟩
  | .hbm, ⟨63, _⟩ => ⟨S_, .i32⟩
  | .hbm, ⟨64, _⟩ => ⟨S300000, .i32⟩
  | .hbm, ⟨65, _⟩ => ⟨S300000, .i32⟩
  | .hbm, ⟨66, _⟩ => ⟨S300000, .i32⟩
  | .hbm, ⟨67, _⟩ => ⟨S_, .i32⟩
  | .hbm, ⟨68, _⟩ => ⟨S300000, .i32⟩
  | .hbm, ⟨69, _⟩ => ⟨S300000, .i1⟩
  | .hbm, ⟨70, _⟩ => ⟨S_, .i32⟩
  | .hbm, ⟨71, _⟩ => ⟨S300000, .i32⟩
  | .hbm, ⟨72, _⟩ => ⟨S300000, .i32⟩
  | .hbm, ⟨73, _⟩ => ⟨S300000, .i32⟩
  | .hbm, ⟨74, _⟩ => ⟨S300000x1, .i32⟩
  | .hbm, ⟨75, _⟩ => ⟨S300000x1, .i32⟩
  | .hbm, ⟨76, _⟩ => ⟨S300000x2, .i32⟩
  | .hbm, ⟨77, _⟩ => ⟨S300000, .f32⟩
  | .hbm, ⟨78, _⟩ => ⟨S1x300000, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_c : Ref sig .tc := ⟨.hbm, 60, rfl⟩
abbrev main_v11 : Ref sig .tc := ⟨.hbm, 61, rfl⟩
abbrev main_v12 : Ref sig .tc := ⟨.hbm, 62, rfl⟩
abbrev main_c_0 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_c_1 : Ref sig .tc := ⟨.hbm, 67, rfl⟩
abbrev main_v16 : Ref sig .tc := ⟨.hbm, 68, rfl⟩
abbrev main_v17 : Ref sig .tc := ⟨.hbm, 69, rfl⟩
abbrev main_c_2 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  slices_S2x300000_S1x300000_1_0 : S2x300000.Slices ![1, 0] S1x300000
  concatenates_S300000x1_S300000x1_S300000x2_d1 : Shape.Concatenates [S300000x1, S300000x1] S300000x2 1
  shapeCasts_S300000_S1x300000 : S300000.ShapeCasts S1x300000
  dot_S100000x512_S256x512_S100000x256_1_1_0_0_n_n_wf : DotDims.WF S100000x512 S256x512 S100000x256 [1] [1] [0] [0] [] []
  gather_S100000x256_S300000x1_S300000x256_1_0_n_n_0_1_1256_wf : GatherDims.WF S100000x256 S300000x1 S300000x256 [1] [0] [] [0] [] 1 ![1, 256]
  dot_S300000x256_S500x256_S300000x500_1_1_0_0_n_n_wf : DotDims.WF S300000x256 S500x256 S300000x500 [1] [1] [0] [0] [] []
  gather_S300000x500_S300000x2_S300000_n_01_n_n_01_1_11_wf : GatherDims.WF S300000x500 S300000x2 S300000 [] [0, 1] [] [0, 1] [] 1 ![1, 1]

variable [Facts₀]

def dot_S100000x512_S256x512_S100000x256_1_1_0_0_n_n : DotDims S100000x512 S256x512 S100000x256 where
  lhsContracting := [1]
  rhsContracting := [1]
  lhsNonContracting := [0]
  rhsNonContracting := [0]
  lhsBatch := []
  rhsBatch := []
  wf := dot_S100000x512_S256x512_S100000x256_1_1_0_0_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x256_S500x256_S300000x500_1_1_0_0_n_n : DotDims S300000x256 S500x256 S300000x500 where
  lhsContracting := [1]
  rhsContracting := [1]
  lhsNonContracting := [0]
  rhsNonContracting := [0]
  lhsBatch := []
  rhsBatch := []
  wf := dot_S300000x256_S500x256_S300000x500_1_1_0_0_n_n_wf
def gather_S300000x500_S300000x2_S300000_n_01_n_n_01_1_11 : GatherDims S300000x500 S300000x2 S300000 where
  offsetDims := []
  collapsedSliceDims := [0, 1]
  operandBatchingDims := []
  startIndicesBatchingDims := []
  startIndexMap := [0, 1]
  indexVectorDim := 1
  sliceSizes := ![1, 1]
  wf := gather_S300000x500_S300000x2_S300000_n_01_n_n_01_1_11_wf

class Facts : Prop extends Facts₀ where

variable [Facts]
-- ==== Proof.Spec.lean ====
/-
  What both programs compute, as functions of the argument arrays over the extended reals.

  Nodes carry embeddings X : [100000, 512]; a linear map W : [256, 512] projects each onto 256 basis directions,
  T[n, b] = Σ_k X[n, k] · W[b, k]  (`projAt`). An edge e joins the nodes named by column e of the [2, 300000] integer
  table; its head-minus-tail vector is row `i₀ e` of T minus row `i₁ e` of T, where a row is fetched the way
  `jnp.take(T, i, axis = 0)` fetches it: a negative index has 100000 added, the row is read at the (clamped)
  position, and a position outside [0, 99999] yields the fill constant instead (`takeRows`, `headTail`). Nothing
  below ever opens that fetch: both programs apply the SAME chain to the same T, so it rides along as one function.
  Each edge also carries a relation type in [0, 500); its score is the inner product of the head-minus-tail vector
  with that relation's basis vector, row `relOf w` of E : [500, 256]  (`relScoreAt`, `edgeScore`).

  One law is used: a sum over the 500 relations of "the r-th score if the type word equals r, else 0" is the score at
  the type word, when that word is below 500 (`sum_pick`): on the extended reals adding zeros changes nothing, so no
  finiteness of the scores is needed.
-/
import Idealize.ShloMosaic.PureOps.Ideal
import Idealize.ShloMosaic.Lib.ValueIdx

noncomputable section

open scoped BigOperators

namespace Cert.EdgeScore

open Idealize.ShloMosaic Idealize.ShloMosaic.ValueIdx

abbrev S100000x512 : Shape := ⟨2, ![100000, 512]⟩
abbrev S256x512 : Shape := ⟨2, ![256, 512]⟩
abbrev S500x256 : Shape := ⟨2, ![500, 256]⟩
abbrev S2x300000 : Shape := ⟨2, ![2, 300000]⟩
abbrev S1x300000 : Shape := ⟨2, ![1, 300000]⟩
abbrev S100000x256 : Shape := ⟨2, ![100000, 256]⟩
abbrev S300000 : Shape := ⟨1, ![300000]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S300000x256 : Shape := ⟨2, ![300000, 256]⟩

/-! ## The projection -/

/-- Node `n` on basis direction `b`: the inner product of row `n` of the embeddings with row `b` of the weights. -/
def projAt (X : S100000x512.Idx → EReal) (W : S256x512.Idx → EReal) (n : Fin 100000) (b : Fin 256) : EReal :=
  ∑ k : Fin 512, X (ix2 n k) * W (ix2 b k)

/-- The projected embeddings as an array. -/
def proj (X : S100000x512.Idx → EReal) (W : S256x512.Idx → EReal) : FVec Ideal S100000x256 .f32 :=
  fun i => projAt X W (i 0) (i 1)

/-! ## Fetching rows by index, as `jnp.take` does -/

theorem slices_row0 : S2x300000.Slices ![0, 0] S1x300000 := by decide
theorem slices_row1 : S2x300000.Slices ![1, 0] S1x300000 := by decide
theorem shapeCasts_row : S1x300000.ShapeCasts S300000 := by decide
theorem bcast_S_S300000 : S_.BroadcastsInDim S300000 (![] : Fin 0 → Fin S300000.rank) := by decide
theorem bcast_S300000_S300000x1_0 : S300000.BroadcastsInDim S300000x1 (![0] : Fin 1 → Fin S300000x1.rank) := by decide
theorem bcast_S_S300000x1 : S_.BroadcastsInDim S300000x1 (![] : Fin 0 → Fin S300000x1.rank) := by decide
theorem bcast_S1_S1x1_1 : S1.BroadcastsInDim S1x1 (![1] : Fin 1 → Fin S1x1.rank) := by decide
theorem bcast_S1x1_S300000x1_0_1 : S1x1.BroadcastsInDim S300000x1 (![0, 1] : Fin 2 → Fin S300000x1.rank) := by decide
theorem reducesTo_S300000x1_S300000_d1 : S300000x1.ReducesTo [1] S300000 := by decide
theorem h_S_ : 0 < S_.numel := by decide
theorem bcast_S300000_S300000x256_0 : S300000.BroadcastsInDim S300000x256 (![0] : Fin 1 → Fin S300000x256.rank) := by decide
theorem bcast_S_S300000x256 : S_.BroadcastsInDim S300000x256 (![] : Fin 0 → Fin S300000x256.rank) := by decide
theorem rowDims_wf : GatherDims.WF S100000x256 S300000x1 S300000x256 [1] [0] [] [0] [] 1 ![1, 256] := by decide

/-- The dimension numbers of a gather of whole rows of a [100000, 256] table at a [300000, 1] column of start indices. -/
def rowDims : GatherDims S100000x256 S300000x1 S300000x256 where
  offsetDims := [1]
  collapsedSliceDims := [0]
  operandBatchingDims := []
  startIndicesBatchingDims := []
  startIndexMap := [0]
  indexVectorDim := 1
  sliceSizes := ![1, 256]
  wf := rowDims_wf

/-- `jnp.take(T, i, axis = 0)`: the index with 100000 added where negative, laid as a column; the rows gathered at it;
    and, where the column lies outside [0, 99999], the fill constant in the row's place. -/
def takeRows (T : FVec Ideal S100000x256 .f32) (i : IVec S300000 32) : FVec Ideal S300000x256 .f32 :=
  let neg : IVec S300000 1 := cmpi .slt i (broadcastInDim S300000 ![] bcast_S_S300000 (constantI S_ 32 0#32))
  let wrapped : IVec S300000 32 := addi i (broadcastInDim S300000 ![] bcast_S_S300000 (constantI S_ 32 100000#32))
  let norm : IVec S300000 32 := select neg wrapped i
  let col : IVec S300000x1 32 := broadcastInDim S300000x1 ![0] bcast_S300000_S300000x1_0 norm
  let ge0 : IVec S300000x1 1 := cmpi .sge col (broadcastInDim S300000x1 ![] bcast_S_S300000x1 (constantI S_ 32 0#32))
  let top : IVec S300000x1 32 :=
    broadcastInDim S300000x1 ![0, 1] bcast_S1x1_S300000x1_0_1 (broadcastInDim S1x1 ![1] bcast_S1_S1x1_1 (constantI S1 32 99999#32))
  let leTop : IVec S300000x1 1 := cmpi .sle col top
  let inside : IVec S300000 1 :=
    Host.reduce IntOp.andi (andi ge0 leTop) (constantI S_ 1 1#1) reducesTo_S300000x1_S300000_d1 h_S_
  select (broadcastInDim S300000x256 ![0] bcast_S300000_S300000x256_0 inside) (Host.gather rowDims T col)
    (broadcastInDim S300000x256 ![] bcast_S_S300000x256 (constant (F := Ideal) S_ .f32 0x7FC00000#32))

/-- Row `r` of the [2, 300000] edge table as a flat vector of 300000 words. -/
def edgeRow0 (A : IVec S2x300000 32) : IVec S300000 32 :=
  shapeCast S300000 (extractStridedSlice S1x300000 ![0, 0] A slices_row0) shapeCasts_row
def edgeRow1 (A : IVec S2x300000 32) : IVec S300000 32 :=
  shapeCast S300000 (extractStridedSlice S1x300000 ![1, 0] A slices_row1) shapeCasts_row

/-- Each edge's head row minus its tail row. -/
def headTail (T : FVec Ideal S100000x256 .f32) (A : IVec S2x300000 32) : FVec Ideal S300000x256 .f32 :=
  subf (takeRows T (edgeRow0 A)) (takeRows T (edgeRow1 A))

/-! ## The score of an edge against its relation -/

/-- Edge `e`'s head-minus-tail vector against relation `r`'s basis vector. -/
def relScoreAt (H : S300000x256.Idx → EReal) (E : S500x256.Idx → EReal) (e : Fin 300000) (r : Fin 500) : EReal :=
  ∑ b : Fin 256, H (ix2 e b) * E (ix2 r b)

/-- The relation a 32-bit word names (total by reduction mod 500; a word below 500 names itself: `relOf_of_lt`). -/
def relOf (w : BitVec 32) : Fin 500 := ⟨w.toNat % 500, Nat.mod_lt _ (by decide)⟩

theorem relOf_val_of_lt {w : BitVec 32} (h : w.toNat < 500) : (relOf w).val = w.toNat := Nat.mod_eq_of_lt h

/-- Every edge's score against its own relation type, laid out [1, 300000]. -/
def edgeScore (H : S300000x256.Idx → EReal) (E : S500x256.Idx → EReal) (Ty : IVec S1x300000 32) : FVec Ideal S1x300000 .f32 :=
  fun j => relScoreAt H E (j 1) (relOf (Ty (ix2 (0 : Fin 1) (j 1))))

/-- The whole computation: project, fetch and subtract, score. -/
def G (X : S100000x512.Idx → EReal) (A : IVec S2x300000 32) (Ty : IVec S1x300000 32) (W : S256x512.Idx → EReal)
    (E : S500x256.Idx → EReal) : FVec Ideal S1x300000 .f32 :=
  edgeScore (headTail (proj X W) A) E Ty

/-! ## The masked sum over the relations picks one -/

/-- Summing, over the 500 relations, the `r`-th value where the word equals `r` and zero elsewhere gives the value at the
    relation the word names, when the word is below 500. -/
theorem sum_pick (w : BitVec 32) (hw : w.toNat < 500) (f : Fin 500 → EReal) :
    (∑ r : Fin 500, if w = BitVec.ofNat 32 r.val then f r else 0) = f (relOf w) := by
  have key : ∀ r : Fin 500, (w = BitVec.ofNat 32 r.val) ↔ (r = relOf w) := by
    intro r
    constructor
    · intro h
      apply Fin.ext
      rw [relOf_val_of_lt hw, h, BitVec.toNat_ofNat]
      exact (Nat.mod_eq_of_lt (by have := r.isLt; omega)).symm
    · intro h
      apply BitVec.eq_of_toNat_eq
      rw [BitVec.toNat_ofNat, h, relOf_val_of_lt hw]
      exact (Nat.mod_eq_of_lt (by omega)).symm
  simp only [key]
  rw [Finset.sum_ite_eq' Finset.univ (relOf w) f]
  simp

end Cert.EdgeScore

end
-- ==== Proof.KProj.lean ====
/-
  Region 0 of the idealized kernel: the projection, block by block.

  The first pipelined region walks 50 blocks of 2000 rows of the embeddings X : [100000, 512]; at each it multiplies the
  block by the whole transposed weight matrix Wt : [512, 256] into a zero accumulator and writes the [2000, 256] product
  back as the same 2000 rows of the output. At the ideal instance the format changes are the identity and the product
  is the plain sum over the 512 contracted positions, so entry (n, b) of the array the region leaves is
  Σ_k X[n, k] · Wt[k, b]: block n / 2000 wrote it, and the 50 blocks tile the array.
-/
import proofs.«411763_j66984309949054_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.ProjValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Rows of `X` against columns of `Wt`. -/
abbrev P (X : S100000x512.Idx → EReal) (Wt : S512x256.Idx → EReal) : S100000x256.Idx → EReal :=
  fun i => ∑ k : Fin 512, X (ix2 (i 0) k) * Wt (ix2 k (i 1))

/-! ## The product's operand indices

The product contracts axis 1 of the left operand against axis 0 of the right one. At the output entry (p, q) and the
contracted position k the left operand is read at (p, k) and the right one at (k, q): one fact per operand axis. -/

/-- The left operand's row is the output's row. -/
theorem lhs_row (p : Fin 2000) (q : Fin 256) (k : dot_S2000x512_S512x256_S2000x256_1_0_0_1_n_n.contr.Idx) :
    (dot_S2000x512_S512x256_S2000x256_1_0_0_1_n_n.lhsIdx (ix2 p q) k 0).val = p.val := by
  simp [DotDims.lhsIdx, dot_S2000x512_S512x256_S2000x256_1_0_0_1_n_n]; rfl

/-- The left operand's column is the contracted position. -/
theorem lhs_contr (p : Fin 2000) (q : Fin 256) (k : dot_S2000x512_S512x256_S2000x256_1_0_0_1_n_n.contr.Idx) :
    (dot_S2000x512_S512x256_S2000x256_1_0_0_1_n_n.lhsIdx (ix2 p q) k 1).val = (k ⟨0, by decide⟩).val :=
  DotDims.lhsIdx_val_of_single (d := dot_S2000x512_S512x256_S2000x256_1_0_0_1_n_n) (cl := 1) rfl (ix2 p q) k

/-- The right operand's row is the contracted position. -/
theorem rhs_contr (p : Fin 2000) (q : Fin 256) (k : dot_S2000x512_S512x256_S2000x256_1_0_0_1_n_n.contr.Idx) :
    (dot_S2000x512_S512x256_S2000x256_1_0_0_1_n_n.rhsIdx (ix2 p q) k 0).val = (k ⟨0, by decide⟩).val :=
  DotDims.rhsIdx_val_of_single (d := dot_S2000x512_S512x256_S2000x256_1_0_0_1_n_n) (cr := 0) rfl (ix2 p q) k

/-- The right operand's column is the output's column. -/
theorem rhs_col (p : Fin 2000) (q : Fin 256) (k : dot_S2000x512_S512x256_S2000x256_1_0_0_1_n_n.contr.Idx) :
    (dot_S2000x512_S512x256_S2000x256_1_0_0_1_n_n.rhsIdx (ix2 p q) k 1).val = q.val := by
  simp [DotDims.rhsIdx, dot_S2000x512_S512x256_S2000x256_1_0_0_1_n_n]; rfl

/-! ## One block's product, entry by entry -/

/-- THE BODY'S RESULT AT AN ENTRY. On extended reals narrowing to bf16 is the identity, the cast of the weights to their
    own shape changes nothing, and the product into the zero accumulator is the plain sum over the 512 contracted
    positions: entry (p, q) is Σ_k x0[p, k] · x1[k, q]. -/
theorem pay_entry (x0 : Vec Ideal S2000x512 .f32) (x1 : Vec Ideal S512x256 .f32) (p : Fin 2000) (q : Fin 256) :
    k0_pay1 (F := Ideal) x0 x1 (ix2 p q) = ∑ k : Fin 512, x0 (ix2 p k) * x1 (ix2 k q) := by
  unfold k0_pay1
  rw [shapeCast_self]
  refine (Ideal.matmul_constant_zero_apply dot_S2000x512_S512x256_S2000x256_1_0_0_1_n_n none _ _ (ix2 p q)).trans ?_
  rw [← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have hl : dot_S2000x512_S512x256_S2000x256_1_0_0_1_n_n.lhsIdx (ix2 p q)
      ((contrEquiv1 dot_S2000x512_S512x256_S2000x256_1_0_0_1_n_n 512 rfl rfl).symm k) = ix2 p k := by
    funext a; apply Fin.ext
    match a with
    | ⟨0, _⟩ => exact lhs_row _ _ _
    | ⟨1, _⟩ => exact (lhs_contr _ _ _).trans hk
  have hr : dot_S2000x512_S512x256_S2000x256_1_0_0_1_n_n.rhsIdx (ix2 p q)
      ((contrEquiv1 dot_S2000x512_S512x256_S2000x256_1_0_0_1_n_n 512 rfl rfl).symm k) = ix2 k q := by
    funext a; apply Fin.ext
    match a with
    | ⟨0, _⟩ => exact (rhs_contr _ _ _).trans hk
    | ⟨1, _⟩ => exact rhs_col _ _ _
  rw [hl, hr, truncf_apply, truncf_apply]

/-- A BLOCK PRODUCT IS A BLOCK OF THE PRODUCT. If x0 is rows 2000·r … 2000·r + 1999 of X and x1 is all of Wt, then the
    body's result at the block entry y is the product P X Wt at the array entry i that sits 2000·r rows further down in
    the same column. -/
theorem block_product (X : S100000x512.Idx → EReal) (Wt : S512x256.Idx → EReal)
    (x0 : Vec Ideal S2000x512 .f32) (x1 : Vec Ideal S512x256 .f32) (r : Nat)
    (y : S2000x256.Idx) (i : S100000x256.Idx)
    (hx0 : ∀ (p : Fin 2000) (k : Fin 512) (n : Fin 100000), n.val = r * 2000 + p.val → x0 (ix2 p k) = X (ix2 n k))
    (hx1 : ∀ (k : Fin 512) (q : Fin 256), x1 (ix2 k q) = Wt (ix2 k q))
    (hi0 : (i 0).val = r * 2000 + (y 0).val) (hi1 : (i 1).val = (y 1).val) :
    k0_pay1 (F := Ideal) x0 x1 y = P X Wt i := by
  obtain ⟨p, q, rfl⟩ : ∃ (p : Fin 2000) (q : Fin 256), y = ix2 p q := ⟨y 0, y 1, eq_ix2 y⟩
  obtain ⟨n, b, rfl⟩ : ∃ (n : Fin 100000) (b : Fin 256), i = ix2 n b := ⟨i 0, i 1, eq_ix2 i⟩
  have hn : n.val = r * 2000 + p.val := hi0
  have hb : b = q := Fin.ext hi1
  subst hb
  rw [pay_entry]
  show ∑ k : Fin 512, x0 (ix2 p k) * x1 (ix2 k b) = ∑ k : Fin 512, X (ix2 n k) * Wt (ix2 k b)
  exact Finset.sum_congr rfl fun k _ => by rw [hx0 p k n hn, hx1 k b]

/-! ## The blocks at a grid point -/

/-- The offsets [0, 0] of a whole-buffer access are the zero offsets. -/
theorem zeros2 : (![0, 0] : Fin 2 → Nat) = fun _ => 0 := funext fun a => by fin_cases a <;> rfl

/-- The three index maps over the 50 grid points: at point t the embeddings' and the output's blocks are block row t
    (column block 0), and the weights' block is the whole matrix. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The embeddings' block at point t is rows 2000·t … 2000·t + 1999 of X: a block's entry sits in the array at block
    index × block size + its own coordinate, on each axis. -/
theorem rows_block (c : Dev nD) (t : Fin cfg0.N) (p : Fin 2000) (k : Fin 512) (n : Fin 100000)
    (hn : n.val = t.val * 2000 + p.val) :
    (iblk0 (F := Ideal) V c 0 t : Vec Ideal S2000x512 .f32) (ix2 p k) = (V c main_arg0 : S100000x512.Idx → EReal) (ix2 n k) := by
  obtain ⟨e00, e01, -, -, -, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * p.val = n.val; omega
  | ⟨1, _⟩ => show win0_0.index t (1 : Fin 2) * 512 + 1 * k.val = k.val; omega

/-- The weights' block at every point is the whole of Wt. -/
theorem weights_block (c : Dev nD) (t : Fin cfg0.N) (k : Fin 512) (q : Fin 256) :
    (iblk0 (F := Ideal) V c 1 t : Vec Ideal S512x256 .f32) (ix2 k q) = (V c main_v0 : S512x256.Idx → EReal) (ix2 k q) := by
  obtain ⟨-, -, e10, e11, -, -⟩ := block_indices t
  unfold iblk0
  rw [View.read_apply]
  show V c main_v0 _ = V c main_v0 _
  congr 1
  funext a
  apply Fin.ext
  match a with
  | ⟨0, _⟩ => show win0_1.index t (0 : Fin 2) * 512 + 1 * k.val = k.val; omega
  | ⟨1, _⟩ => show win0_1.index t (1 : Fin 2) * 256 + 1 * q.val = q.val; omega

/-- WHAT POINT t WRITES BACK is block t of P X Wt: the body stores its one result through the whole buffer, its two
    loads read the whole input buffers, and the block product is the block of the product. -/
theorem written_back (c : Dev nD) (t : Fin cfg0.N) :
    (dat0 (F := Ideal) V c).flushed 2 t
      = ((cfg0.win 2).blk t).view.read (Elt Ideal) (P (V c main_arg0) (V c main_v0)) := by
  show (cfg0.win 2).cut (grid0.coords t) ((dat0 (F := Ideal) V c).after 2 t) = _
  rw [after0_2]
  unfold out0_2
  rw [View.canon_unit_zero zeros2]
  simp only [View.ld_unit_zero (S := S2000x512) zeros2, View.ld_unit_zero (S := S512x256) zeros2]
  obtain ⟨-, -, -, -, e20, e21⟩ := block_indices t
  funext j
  refine block_product (V c main_arg0) (V c main_v0) (iblk0 V c 0 t) (iblk0 V c 1 t) t.val
    ((cfg0.win 2).xinj (grid0.coords t) j) (((cfg0.win 2).blk t).view.emb j)
    (rows_block V c t) (weights_block V c t) ?_ ?_
  · show win0_2.index t (0 : Fin 2) * 2000 + 1 * (j 0).val = t.val * 2000 + (j 0).val
    omega
  · show win0_2.index t (1 : Fin 2) * 256 + 1 * (j 1).val = (j 1).val
    omega

/-! ## The 50 blocks tile the array -/

/-- An entry of the array is in point t's block iff each coordinate is in the block's range on its axis. -/
theorem mem_block (t : Fin cfg0.N) (i : S100000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v1).slice (win0_2.rect t)).set ↔ _
  rw [View.set_slice_whole, Rect.mem_set_unit]
  exact Iff.rfl

/-- Row n is written by point n / 2000, and every point writes back. -/
theorem every_row_written (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : grid0.N = 50 := N_0
  let t : Fin cfg0.N := ⟨(i 0).val / 2000, by show (i 0).val / 2000 < grid0.N; omega⟩
  obtain ⟨-, -, -, -, e20, e21⟩ := block_indices t
  have ht : t.val = (i 0).val / 2000 := rfl
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- THE ARRAY region 0 leaves in its output window: every entry the inner product of the embeddings' row with the
    transposed weights' column, as the region found those two arrays. -/
theorem region0_array (c : Dev nD) :
    (dat0 (F := Ideal) V c).arrAt 2 cfg0.N = P (V c main_arg0) (V c main_v0) :=
  (dat0 (F := Ideal) V c).arrAt_eq_of_cover 2 (P (V c main_arg0) (V c main_v0))
    (fun t _ => written_back V c t) every_row_written

end Cert.KernelIdeal.ProjValue

end
-- ==== Proof.KScore.lean ====
/-
  Region 1 of the idealized kernel: each edge's score against its own relation, block by block.

  The second pipelined region walks 147 blocks of 2048 rows of the (zero-padded) head-minus-tail vectors
  H : [301056, 256]; at each it multiplies the block by the whole transposed basis Et : [256, 500] into a zero
  accumulator, compares the block's column of relation-type words Ty : [301056, 1] with the lane number 0 … 499, keeps a
  product where they agree and zero elsewhere, and sums the 500 lanes from zero. So entry (i, 0) of the array the region
  leaves is Σ_r (if Ty[i, 0] = r then Σ_b H[i, b] · Et[b, r] else 0): block i / 2048 wrote it, and the 147 blocks tile
  the array.
-/
import proofs.«411763_j66984309949054_1_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

open scoped BigOperators

namespace Cert.KernelIdeal.ScoreValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Per row: over the 500 lanes, the row's product with lane `r`'s basis column where the row's type word is `r`, zero elsewhere. -/
abbrev Sc (H : S301056x256.Idx → EReal) (Et : S256x500.Idx → EReal) (Ty : S301056x1.Idx → BitVec 32) : S301056x1.Idx → EReal :=
  fun i => ∑ r : Fin 500, if Ty (ix2 (i 0) (0 : Fin 1)) = BitVec.ofNat 32 r.val then ∑ b : Fin 256, H (ix2 (i 0) b) * Et (ix2 b r) else 0

/-! ## The block product's operand indices: at output entry j and contraction position k the left operand is read at (j's row, k) and the right at (k, j's lane) -/

theorem lhs_row (j : S2048x500.Idx) (k : dot_S2048x256_S256x500_S2048x500_1_0_0_1_n_n.contr.Idx) :
    ((dot_S2048x256_S256x500_S2048x500_1_0_0_1_n_n.lhsIdx j k) 0).val = (j 0).val := by
  simp [DotDims.lhsIdx, dot_S2048x256_S256x500_S2048x500_1_0_0_1_n_n]; rfl

theorem lhs_col (j : S2048x500.Idx) (k : dot_S2048x256_S256x500_S2048x500_1_0_0_1_n_n.contr.Idx) :
    ((dot_S2048x256_S256x500_S2048x500_1_0_0_1_n_n.lhsIdx j k) 1).val = (k ⟨0, by decide⟩).val :=
  DotDims.lhsIdx_val_of_single (d := dot_S2048x256_S256x500_S2048x500_1_0_0_1_n_n) (cl := 1) rfl j k

theorem rhs_row (j : S2048x500.Idx) (k : dot_S2048x256_S256x500_S2048x500_1_0_0_1_n_n.contr.Idx) :
    ((dot_S2048x256_S256x500_S2048x500_1_0_0_1_n_n.rhsIdx j k) 0).val = (k ⟨0, by decide⟩).val :=
  DotDims.rhsIdx_val_of_single (d := dot_S2048x256_S256x500_S2048x500_1_0_0_1_n_n) (cr := 0) rfl j k

theorem rhs_col (j : S2048x500.Idx) (k : dot_S2048x256_S256x500_S2048x500_1_0_0_1_n_n.contr.Idx) :
    ((dot_S2048x256_S256x500_S2048x500_1_0_0_1_n_n.rhsIdx j k) 1).val = (j 1).val := by
  simp [DotDims.rhsIdx, dot_S2048x256_S256x500_S2048x500_1_0_0_1_n_n]; rfl

/-! ## The body's stored value at a row -/

/-- The block product into a zero accumulator, at row p and lane r: the row of the left block against the column of the right. -/
theorem prod_entry (A : FVec Ideal S2048x256 .bf16) (B : FVec Ideal S256x500 .bf16) (p : Fin 2048) (r : Fin 500) :
    matmul dot_S2048x256_S256x500_S2048x500_1_0_0_1_n_n none A B (constant (F := Ideal) S2048x500 .f32 0x00000000#32) (ix2 p r)
      = ∑ b : Fin 256, A (ix2 p b) * B (ix2 b r) := by
  simp only [matmul]
  rw [Ideal.matmul_constant_zero_apply]
  rw [← Equiv.sum_comp (contrEquiv1 dot_S2048x256_S256x500_S2048x500_1_0_0_1_n_n 256 rfl rfl).symm]
  refine Finset.sum_congr rfl fun b _ => ?_
  have hl : dot_S2048x256_S256x500_S2048x500_1_0_0_1_n_n.lhsIdx (ix2 p r) ((contrEquiv1 dot_S2048x256_S256x500_S2048x500_1_0_0_1_n_n 256 rfl rfl).symm b) = ix2 p b := by
    funext a; apply Fin.ext
    match a with
    | ⟨0, _⟩ => exact lhs_row _ _
    | ⟨1, _⟩ => exact (lhs_col _ _).trans (contrEquiv1_symm_val _ 256 rfl rfl b)
  have hr : dot_S2048x256_S256x500_S2048x500_1_0_0_1_n_n.rhsIdx (ix2 p r) ((contrEquiv1 dot_S2048x256_S256x500_S2048x500_1_0_0_1_n_n 256 rfl rfl).symm b) = ix2 b r := by
    funext a; apply Fin.ext
    match a with
    | ⟨0, _⟩ => exact (rhs_row _ _).trans (contrEquiv1_symm_val _ 256 rfl rfl b)
    | ⟨1, _⟩ => exact rhs_col _ _
  rw [hl, hr]

/-- Putting lane r back into the reduced row index p gives the entry (p, r). -/
theorem lane_back (h : S2048x500.Reduces [1] S2048) (p : Fin 2048) (r : Fin 500) :
    h.lift (ix1 p) r = ix2 p r := by
  funext c; apply Fin.ext
  fin_cases c <;> rfl

/-- The masked entry: the row's type word, spread along the lanes, agrees with lane r's number exactly when the word is r;
    there the entry is kept, elsewhere it is the zero. -/
theorem keep_entry (x2 : IVec S2048x1 32) (M : FVec Ideal S2048x500 .f32) (p : Fin 2048) (r : Fin 500) :
    select (cmpi .eq (broadcastTo S2048x500 (shapeCast S2048x1 x2 shapeCasts_S2048x1_S2048x1) broadcasts_S2048x1_S2048x500)
        (iota .tc S2048x500 32 [1] iota_S2048x500_d1_w32)) M (broadcast S2048x500 (FloatOps.ofBits (F := Ideal) .f32 0x00000000#32)) (ix2 p r)
      = if x2 (ix2 p (0 : Fin 1)) = BitVec.ofNat 32 r.val then M (ix2 p r) else 0 := by
  have hty : broadcastTo S2048x500 (shapeCast S2048x1 x2 shapeCasts_S2048x1_S2048x1) broadcasts_S2048x1_S2048x500 (ix2 p r) = x2 (ix2 p (0 : Fin 1)) := by
    rw [shapeCast_self]
    refine broadcastTo_apply _ _ _ (ix2 p (0 : Fin 1)) fun a => ?_
    match a with
    | ⟨0, _⟩ => show p.val = if (2048 : ℕ) = 1 then 0 else p.val; rw [if_neg (by decide)]
    | ⟨1, _⟩ => show (0 : ℕ) = if (1 : ℕ) = 1 then 0 else r.val; rw [if_pos rfl]
  have hln : iota .tc S2048x500 32 [1] iota_S2048x500_d1_w32 (ix2 p r) = BitVec.ofNat 32 r.val :=
    iota_single_apply .tc S2048x500 32 1 iota_S2048x500_d1_w32 (ix2 p r)
  rw [select_apply, broadcast_apply]
  show Scalar.select (IntOp.cmpi .eq (broadcastTo S2048x500 (shapeCast S2048x1 x2 shapeCasts_S2048x1_S2048x1) broadcasts_S2048x1_S2048x500 (ix2 p r))
      (iota .tc S2048x500 32 [1] iota_S2048x500_d1_w32 (ix2 p r))) _ _ = _
  rw [hty, hln]
  by_cases h : x2 (ix2 p (0 : Fin 1)) = BitVec.ofNat 32 r.val
  · rw [if_pos h, StableHlo.Predicate.cmpi_eq_iff.mpr h, select_one]
  · rw [if_neg h, eq_zero_of_ne_one (fun e => h (StableHlo.Predicate.cmpi_eq_iff.mp e)), select_zero]
    exact Ideal.ofBits_zero_f32

/-- THE PAYLOAD AT A ROW: what the body stores at (p, 0) is the masked lane sum of row p's products. -/
theorem pay_entry (x0 : Vec Ideal S2048x256 .f32) (x1 : Vec Ideal S256x500 .f32) (x2 : Vec Ideal S2048x1 .i32) (p : Fin 2048) :
    k1_pay1 (F := Ideal) x0 x1 x2 (ix2 p (0 : Fin 1))
      = ∑ r : Fin 500, if x2 (ix2 p (0 : Fin 1)) = BitVec.ofNat 32 r.val then ∑ b : Fin 256, x0 (ix2 p b) * x1 (ix2 b r) else 0 := by
  unfold k1_pay1
  refine (shapeCast_apply _ _ (ix2 p (0 : Fin 1)) (ix1 p) ?_).trans ?_
  · rw [Shape.rowMajor_val_one, Shape.rowMajor_val_two]
    show p.val = p.val * 1 + 0
    omega
  refine (Ideal.multiReduction_add_single _ _ _ _ _ (ix1 p)).trans ?_
  refine Finset.sum_congr rfl fun (r : Fin 500) _ => ?_
  refine (congrArg _ (lane_back reduces_S2048x500_S2048 p r)).trans ?_
  refine (keep_entry x2 _ p r).trans ?_
  rw [prod_entry]
  simp only [truncf_apply, shapeCast_self]

/-- The same at any index of the block: its column coordinate is the one there is. -/
theorem pay_at (x0 : Vec Ideal S2048x256 .f32) (x1 : Vec Ideal S256x500 .f32) (x2 : Vec Ideal S2048x1 .i32) (j : S2048x1.Idx) :
    k1_pay1 (F := Ideal) x0 x1 x2 j
      = ∑ r : Fin 500, if x2 (ix2 (j 0) (0 : Fin 1)) = BitVec.ofNat 32 r.val then ∑ b : Fin 256, x0 (ix2 (j 0) b) * x1 (ix2 b r) else 0 := by
  obtain ⟨p, q, rfl⟩ : ∃ (p : Fin 2048) (q : Fin 1), j = ix2 p q := ⟨j 0, j 1, eq_ix2 j⟩
  obtain rfl : q = 0 := Subsingleton.elim _ _
  exact pay_entry x0 x1 x2 p

/-! ## From the blocks to the array -/

theorem zero_offsets : (![0, 0] : Fin 2 → Nat) = fun _ => 0 := funext fun a => by fin_cases a <;> rfl

/-- The windows' index maps over the 147 points: at point t the row-blocked windows sit at block (t, 0), the basis at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row p of point t's block of the type words is row 2048 t + p of the array. -/
theorem read_type (c : Dev nD) (t : Fin cfg1.N) (p : Fin 2048) (i : Fin 301056) (hi : i.val = t.val * 2048 + p.val) :
    (iblk1 V c 2 t : Vec Ideal S2048x1 .i32) (ix2 p (0 : Fin 1)) = (V c main_v12 : S301056x1.Idx → BitVec 32) (ix2 i (0 : Fin 1)) := by
  obtain ⟨e00, e01, e10, e11, e20, e21, e30, e31⟩ := block_indices t
  unfold iblk1
  rw [View.read_apply]
  show V c main_v12 (((cfg1.win 2).blk t).view.emb (ix2 p (0 : Fin 1))) = V c main_v12 (ix2 i (0 : Fin 1))
  congr 1
  funext a; apply Fin.ext
  match a with
  | ⟨0, _⟩ => show win1_2.index t (0 : Fin 2) * 2048 + 1 * p.val = i.val; rw [e20, hi]; omega
  | ⟨1, _⟩ => show win1_2.index t (1 : Fin 2) * 1 + 1 * 0 = 0; rw [e21]

/-- Row p of point t's block of the head-minus-tail vectors is row 2048 t + p of the array, column for column. -/
theorem read_vec (c : Dev nD) (t : Fin cfg1.N) (p : Fin 2048) (i : Fin 301056) (b : Fin 256) (hi : i.val = t.val * 2048 + p.val) :
    (iblk1 V c 0 t : Vec Ideal S2048x256 .f32) (ix2 p b) = (V c main_v10 : S301056x256.Idx → EReal) (ix2 i b) := by
  obtain ⟨e00, e01, e10, e11, e20, e21, e30, e31⟩ := block_indices t
  unfold iblk1
  rw [View.read_apply]
  show V c main_v10 (((cfg1.win 0).blk t).view.emb (ix2 p b)) = V c main_v10 (ix2 i b)
  congr 1
  funext a; apply Fin.ext
  match a with
  | ⟨0, _⟩ => show win1_0.index t (0 : Fin 2) * 2048 + 1 * p.val = i.val; rw [e00, hi]; omega
  | ⟨1, _⟩ => show win1_0.index t (1 : Fin 2) * 256 + 1 * b.val = b.val; rw [e01]; omega

/-- Every point's block of the basis is the whole basis. -/
theorem read_basis (c : Dev nD) (t : Fin cfg1.N) (b : Fin 256) (r : Fin 500) :
    (iblk1 V c 1 t : Vec Ideal S256x500 .f32) (ix2 b r) = (V c main_v13 : S256x500.Idx → EReal) (ix2 b r) := by
  obtain ⟨e00, e01, e10, e11, e20, e21, e30, e31⟩ := block_indices t
  unfold iblk1
  rw [View.read_apply]
  show V c main_v13 (((cfg1.win 1).blk t).view.emb (ix2 b r)) = V c main_v13 (ix2 b r)
  congr 1
  funext a; apply Fin.ext
  match a with
  | ⟨0, _⟩ => show win1_1.index t (0 : Fin 2) * 256 + 1 * b.val = b.val; rw [e10]; omega
  | ⟨1, _⟩ => show win1_1.index t (1 : Fin 2) * 500 + 1 * r.val = r.val; rw [e11]; omega

/-- WHAT POINT t WRITES BACK is block t of the score array. -/
theorem block_eq (c : Dev nD) (t : Fin cfg1.N) :
    (dat1 (F := Ideal) V c).flushed 3 t
      = ((cfg1.win 3).blk t).view.read (Elt Ideal) (Sc (V c main_v10) (V c main_v13) (V c main_v12)) := by
  show (cfg1.win 3).cut (grid1.coords t) ((dat1 V c).after 3 t) = _
  rw [after1_3]
  unfold out1_3
  rw [View.canon_unit_zero zero_offsets]
  simp only [View.ld_unit_zero (S := S2048x256) zero_offsets, View.ld_unit_zero (S := S256x500) zero_offsets, View.ld_unit_zero (S := S2048x1) zero_offsets]
  funext j
  show k1_pay1 (F := Ideal) (iblk1 V c 0 t) (iblk1 V c 1 t) (iblk1 V c 2 t) j
    = Sc (V c main_v10) (V c main_v13) (V c main_v12) (((cfg1.win 3).blk t).view.emb j)
  refine (pay_at _ _ _ j).trans ?_
  obtain ⟨e00, e01, e10, e11, e20, e21, e30, e31⟩ := block_indices t
  have hrow : ((((cfg1.win 3).blk t).view.emb j) 0).val = t.val * 2048 + (j 0).val := by
    show win1_3.index t (0 : Fin 2) * 2048 + 1 * (j 0).val = _
    rw [e30]; omega
  refine Finset.sum_congr rfl fun r _ => ?_
  refine if_congr ?_ (Finset.sum_congr rfl fun b _ => ?_) rfl
  · rw [read_type V c t (j 0) ((((cfg1.win 3).blk t).view.emb j) 0) hrow]
  · rw [read_vec V c t (j 0) ((((cfg1.win 3).blk t).view.emb j) 0) b hrow, read_basis V c t b r]

/-- An index of the array is in point t's block iff each coordinate is in the block's range on its axis. -/
theorem mem_block (t : Fin cfg1.N) (i : S301056x1.Idx) :
    i ∈ ((cfg1.win 3).blk t).view.set ↔ ∀ a : Fin 2, win1_3.index t a * S2048x1.size a ≤ (i a).val ∧ (i a).val < win1_3.index t a * S2048x1.size a + S2048x1.size a := by
  show i ∈ ((View.whole main_v14).slice (win1_3.rect t)).set ↔ _
  rw [View.set_slice_whole, Rect.mem_set_unit]
  exact Iff.rfl

/-- Row i of the array lies in the block of point i / 2048, and every point writes back. -/
theorem covered (i : S301056x1.Idx) : ∃ t : Fin cfg1.N, (cfg1.win 3).flush t = true ∧ i ∈ ((cfg1.win 3).blk t).view.set := by
  have hi0 : (i 0).val < 301056 := (i 0).isLt
  have hi1 : (i 1).val < 1 := (i 1).isLt
  have hlt : (i 0).val / 2048 < cfg1.N := lt_of_lt_of_eq (by omega : (i 0).val / 2048 < 147) N_1.symm
  have e30 : win1_3.index ⟨(i 0).val / 2048, hlt⟩ (0 : Fin 2) = (i 0).val / 2048 := (block_indices ⟨(i 0).val / 2048, hlt⟩).2.2.2.2.2.2.1
  have e31 : win1_3.index ⟨(i 0).val / 2048, hlt⟩ (1 : Fin 2) = 0 := (block_indices ⟨(i 0).val / 2048, hlt⟩).2.2.2.2.2.2.2
  refine ⟨⟨(i 0).val / 2048, hlt⟩, flush1_3 _, ?_⟩
  rw [mem_block]
  intro a
  match a with
  | ⟨0, _⟩ =>
    show win1_3.index ⟨(i 0).val / 2048, hlt⟩ (0 : Fin 2) * 2048 ≤ (i 0).val ∧ (i 0).val < win1_3.index ⟨(i 0).val / 2048, hlt⟩ (0 : Fin 2) * 2048 + 2048
    rw [e30]; omega
  | ⟨1, _⟩ =>
    show win1_3.index ⟨(i 0).val / 2048, hlt⟩ (1 : Fin 2) * 1 ≤ (i 1).val ∧ (i 1).val < win1_3.index ⟨(i 0).val / 2048, hlt⟩ (1 : Fin 2) * 1 + 1
    rw [e31]; omega

/-- THE ARRAY region 1 leaves in its output window, as a function of the three arrays the region found. -/
theorem region1_array (c : Dev nD) :
    (dat1 (F := Ideal) V c).arrAt 3 cfg1.N = Sc (V c main_v10) (V c main_v13) (V c main_v12) := by
  exact (dat1 (F := Ideal) V c).arrAt_eq_of_cover 3 (Sc (V c main_v10) (V c main_v13) (V c main_v12)) (fun t _ => block_eq V c t) covered

end Cert.KernelIdeal.ScoreValue

end
-- ==== Proof.KHost.lean ====
/-
  What the idealized kernel computes: its result array, read back through the run, is the specification.

  The run ends with every buffer at a fold from the launch memory: a transpose of the weights; region 0's write-backs
  (the projection, module KProj); the host stretch that fetches and subtracts rows (the shared chain, kept as one
  function), pads the differences and the relation types with 1056 zero rows, lays the types as a column and transposes
  the basis; region 1's write-backs (the masked lane sum, module KScore); and a slice of the first 300000 rows laid as
  one row. Entry (0, e) of the result is therefore row e of region 1's array; below row 300000 the pads are the
  identity, so the row's masked sum is over edge e's own head-minus-tail vector and type word; and with the type word
  below 500 the sum over the 500 lanes of "score where the word equals the lane, zero elsewhere" is the score at the
  relation the word names.
-/
import proofs.«411763_j66984309949054_1_alg».proof.Proof.Gen.KernelIdeal.Frame
import proofs.«411763_j66984309949054_1_alg».proof.Proof.Spec
import proofs.«411763_j66984309949054_1_alg».proof.Proof.KProj
import proofs.«411763_j66984309949054_1_alg».proof.Proof.KScore
import Idealize.ShloMosaic.Lib.StableHlo.Run
import Idealize.ShloMosaic.Lib.ValueIdx
import Idealize.ShloMosaic.Lib.Pipeline.Value
import Idealize.ShloMosaic.Lib.KernelVsHost

set_option maxRecDepth 16384

noncomputable section

open scoped BigOperators

namespace Cert.KernelIdeal.HostValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## Layout operations of the host stretches, read at an entry -/

/-- The transposed weights at (k, b) are the weights at (b, k). -/
theorem transposed_weights_at (W : S256x512.Idx → EReal) (k : Fin 512) (b : Fin 256) :
    transpose S512x256 [1, 0] W transposes_S256x512_S512x256_1_0 (ix2 k b) = W (ix2 b k) :=
  transpose_apply [1, 0] W transposes_S256x512_S512x256_1_0 (ix2 k b) (ix2 b k) (fun a => by
    match a with
    | ⟨0, _⟩ => rfl
    | ⟨1, _⟩ => rfl)

/-- The transposed basis at (b, r) is the basis at (r, b). -/
theorem transposed_basis_at (E : S500x256.Idx → EReal) (b : Fin 256) (r : Fin 500) :
    transpose S256x500 [1, 0] E transposes_S500x256_S256x500_1_0 (ix2 b r) = E (ix2 r b) :=
  transpose_apply [1, 0] E transposes_S500x256_S256x500_1_0 (ix2 b r) (ix2 r b) (fun a => by
    match a with
    | ⟨0, _⟩ => rfl
    | ⟨1, _⟩ => rfl)

/-- A row of the zero-padded [301056, 256] array below row 300000 is the row of the array that was padded. -/
theorem padded_rows_at (H : S300000x256.Idx → EReal) (v : S_.Idx → EReal) (e : Fin 300000) (e' : Fin 301056)
    (he : e'.val = e.val) (b : Fin 256) :
    pad S301056x256 ![0, 0] ![1056, 0] ![0, 0] H v pads_S300000x256_S301056x256_010560_000 h_S_ (ix2 e' b) = H (ix2 e b) :=
  pad_apply_of_inside ![0, 0] ![1056, 0] ![0, 0] H v pads_S300000x256_S301056x256_010560_000 h_S_ (ix2 e' b) (ix2 e b) (fun a => by
    match a with
    | ⟨0, _⟩ => show e'.val = 0 + e.val * (0 + 1); omega
    | ⟨1, _⟩ => show b.val = 0 + b.val * (0 + 1); omega)

/-- An entry of the zero-padded vector of 301056 words below position 300000 is the entry of the vector that was padded. -/
theorem padded_words_at (x : S300000.Idx → BitVec 32) (v : S_.Idx → BitVec 32) (e : Fin 300000) (e' : Fin 301056)
    (he : e'.val = e.val) :
    pad S301056 ![0] ![1056] ![0] x v pads_S300000_S301056_010560 h_S_ (ix1 e') = x (ix1 e) :=
  pad_apply_of_inside ![0] ![1056] ![0] x v pads_S300000_S301056_010560 h_S_ (ix1 e') (ix1 e) (fun a => by
    match a with
    | ⟨0, _⟩ => show e'.val = 0 + e.val * (0 + 1); omega)

/-- A vector of 301056 words laid as a [301056, 1] column: row e' holds entry e'. -/
theorem column_at (y : S301056.Idx → BitVec 32) (e' : Fin 301056) :
    shapeCast S301056x1 y shapeCasts_S301056_S301056x1 (ix2 e' (0 : Fin 1)) = y (ix1 e') :=
  shapeCast_apply y shapeCasts_S301056_S301056x1 (ix2 e' (0 : Fin 1)) (ix1 e') (by
    rw [Shape.rowMajor_val_two, Shape.rowMajor_val_one]; show e'.val = e'.val * 1 + 0; omega)

/-- The [1, 300000] row of relation types flattened: entry e is the row's entry (0, e). -/
theorem flattened_row_at (Ty : S1x300000.Idx → BitVec 32) (e : Fin 300000) :
    shapeCast S300000 Ty shapeCasts_S1x300000_S300000 (ix1 e) = Ty (ix2 (0 : Fin 1) e) :=
  shapeCast_apply Ty shapeCasts_S1x300000_S300000 (ix1 e) (ix2 (0 : Fin 1) e) (by
    rw [Shape.rowMajor_val_two, Shape.rowMajor_val_one]; show 0 * 300000 + e.val = e.val; omega)

/-- The result's layout: the first 300000 rows of the [301056, 1] column, flattened and laid as a [1, 300000] row; entry
    (0, e) is the column's row e. -/
theorem result_row_at (Y : S301056x1.Idx → EReal) (e : Fin 300000) (e' : Fin 301056) (he : e'.val = e.val) :
    shapeCast S1x300000 (shapeCast S300000 (extractStridedSlice S300000x1 ![0, 0] Y slices_S301056x1_S300000x1_0_0)
        shapeCasts_S300000x1_S300000) shapeCasts_S300000_S1x300000 (ix2 (0 : Fin 1) e) = Y (ix2 e' (0 : Fin 1)) := by
  refine (shapeCast_apply _ shapeCasts_S300000_S1x300000 (ix2 (0 : Fin 1) e) (ix1 e) (by
    rw [Shape.rowMajor_val_two, Shape.rowMajor_val_one]; show e.val = 0 * 300000 + e.val; omega)).trans ?_
  refine (shapeCast_apply _ shapeCasts_S300000x1_S300000 (ix1 e) (ix2 e (0 : Fin 1)) (by
    rw [Shape.rowMajor_val_two, Shape.rowMajor_val_one]; show e.val * 1 + 0 = e.val; omega)).trans ?_
  exact extractStridedSlice_apply ![0, 0] Y slices_S301056x1_S300000x1_0_0 (ix2 e (0 : Fin 1)) (ix2 e' (0 : Fin 1)) (fun a => by
    match a with
    | ⟨0, _⟩ => show e'.val = 0 + e.val; omega
    | ⟨1, _⟩ => show (0 : Nat) = 0 + 0; rfl)

/-! ## The two regions' arrays, re-read over plain arrays -/

/-- Rows of the embeddings against columns of the TRANSPOSED weights is the projection. -/
theorem proj_of_transposed (X : S100000x512.Idx → EReal) (W : S256x512.Idx → EReal) :
    Cert.KernelIdeal.ProjValue.P X (transpose S512x256 [1, 0] W transposes_S256x512_S512x256_1_0) = Cert.EdgeScore.proj X W := by
  funext i
  obtain ⟨n, b, rfl⟩ : ∃ (n : Fin 100000) (b : Fin 256), i = ix2 n b := ⟨i 0, i 1, eq_ix2 i⟩
  show (∑ k : Fin 512, X (ix2 n k) * transpose S512x256 [1, 0] W transposes_S256x512_S512x256_1_0 (ix2 k b))
    = ∑ k : Fin 512, X (ix2 n k) * W (ix2 b k)
  exact Finset.sum_congr rfl fun k _ => by rw [transposed_weights_at]

/-- Row e' of region 1's array, when that row of the three arrays it found is edge e's head-minus-tail vector, the
    transposed basis and edge e's type word w < 500: the masked sum over the 500 lanes keeps the lane w names, so the
    row holds edge e's score against relation w. -/
theorem masked_row (H' : S301056x256.Idx → EReal) (Et : S256x500.Idx → EReal) (Ty' : S301056x1.Idx → BitVec 32)
    (HT : S300000x256.Idx → EReal) (E : S500x256.Idx → EReal) (w : BitVec 32) (e : Fin 300000) (e' : Fin 301056)
    (hTy : Ty' (ix2 e' (0 : Fin 1)) = w) (hH : ∀ b : Fin 256, H' (ix2 e' b) = HT (ix2 e b))
    (hE : ∀ (b : Fin 256) (r : Fin 500), Et (ix2 b r) = E (ix2 r b)) (hw : w.toNat < 500) :
    Cert.KernelIdeal.ScoreValue.Sc H' Et Ty' (ix2 e' (0 : Fin 1)) = Cert.EdgeScore.relScoreAt HT E e (Cert.EdgeScore.relOf w) := by
  show (∑ r : Fin 500, if Ty' (ix2 e' (0 : Fin 1)) = BitVec.ofNat 32 r.val then ∑ b : Fin 256, H' (ix2 e' b) * Et (ix2 b r) else 0) = _
  simp only [hTy, hH, hE]
  exact Cert.EdgeScore.sum_pick w hw _

/-- A [301056, 1] column whose row e (for every edge e) is a row function's entry (0, e), sliced to its first 300000
    rows and laid as one row, is that row function. -/
theorem row_of_column (Y : S301056x1.Idx → EReal) (R : S1x300000.Idx → EReal)
    (h : ∀ (e : Fin 300000) (e' : Fin 301056), e'.val = e.val → Y (ix2 e' (0 : Fin 1)) = R (ix2 (0 : Fin 1) e)) :
    shapeCast S1x300000 (shapeCast S300000 (extractStridedSlice S300000x1 ![0, 0] Y slices_S301056x1_S300000x1_0_0)
      shapeCasts_S300000x1_S300000) shapeCasts_S300000_S1x300000 = R := by
  funext j
  obtain ⟨z, e, rfl⟩ : ∃ (z : Fin 1) (e : Fin 300000), j = ix2 z e := ⟨j 0, j 1, eq_ix2 j⟩
  obtain rfl : z = 0 := Subsingleton.elim _ _
  have he' : e.val < 301056 := by have := e.isLt; omega
  exact (result_row_at Y e ⟨e.val, he'⟩ rfl).trans (h e ⟨e.val, he'⟩ rfl)

/-! ## The buffers along the run -/

/-- The embeddings as region 0 finds them are the launch contents. -/
theorem W1_arg0 (c : Dev nD) : W1 (F := Ideal) m ρ c (Proc.devRef .tc main_arg0) = m ((c : Thread nD τ).loc main_arg0) := by
  show after hostOps0 (W0 (F := Ideal) m ρ c) (Proc.devRef .tc main_arg0) = _
  after_results_simp

/-- The transposed weights as region 0 finds them. -/
theorem W1_v0 (c : Dev nD) :
    W1 (F := Ideal) m ρ c (Proc.devRef .tc main_v0)
      = transpose S512x256 [1, 0] (m ((c : Thread nD τ).loc main_arg3)) transposes_S256x512_S512x256_1_0 := by
  show after hostOps0 (W0 (F := Ideal) m ρ c) (Proc.devRef .tc main_v0) = _
  after_results_simp

/-- An argument array region 0 does not touch is, at the region's exit, the launch contents. -/
theorem W2_arg1 (c : Dev nD) : W2 (F := Ideal) m ρ c (Proc.devRef .tc main_arg1) = m ((c : Thread nD τ).loc main_arg1) := by
  refine (W2_of_ne m ρ c main_arg1 (by decide)).trans ?_
  show after hostOps0 (W0 (F := Ideal) m ρ c) (Proc.devRef .tc main_arg1) = _
  after_results_simp
theorem W2_arg2 (c : Dev nD) : W2 (F := Ideal) m ρ c (Proc.devRef .tc main_arg2) = m ((c : Thread nD τ).loc main_arg2) := by
  refine (W2_of_ne m ρ c main_arg2 (by decide)).trans ?_
  show after hostOps0 (W0 (F := Ideal) m ρ c) (Proc.devRef .tc main_arg2) = _
  after_results_simp
theorem W2_arg4 (c : Dev nD) : W2 (F := Ideal) m ρ c (Proc.devRef .tc main_arg4) = m ((c : Thread nD τ).loc main_arg4) := by
  refine (W2_of_ne m ρ c main_arg4 (by decide)).trans ?_
  show after hostOps0 (W0 (F := Ideal) m ρ c) (Proc.devRef .tc main_arg4) = _
  after_results_simp

/-- Region 0 leaves the projection of the embeddings by the weights. -/
theorem W2_v1 (c : Dev nD) :
    W2 (F := Ideal) m ρ c (Proc.devRef .tc main_v1)
      = Cert.EdgeScore.proj (m ((c : Thread nD τ).loc main_arg0)) (m ((c : Thread nD τ).loc main_arg3)) := by
  refine (W2_arr m ρ c 2).trans ?_
  rw [Cert.KernelIdeal.ProjValue.region0_array (V1 (F := Ideal) m ρ) c,
    show V1 (F := Ideal) m ρ c main_arg0 = m ((c : Thread nD τ).loc main_arg0) from W1_arg0 m ρ c,
    show V1 (F := Ideal) m ρ c main_v0 = transpose S512x256 [1, 0] (m ((c : Thread nD τ).loc main_arg3)) transposes_S256x512_S512x256_1_0
      from W1_v0 m ρ c]
  exact proj_of_transposed _ _

/-- The transposed basis as region 1 finds it. -/
theorem W10_v13 (c : Dev nD) :
    W10 (F := Ideal) m ρ c (Proc.devRef .tc main_v13)
      = transpose S256x500 [1, 0] (W2 (F := Ideal) m ρ c (Proc.devRef .tc main_arg4)) transposes_S500x256_S256x500_1_0 := by
  show after hostOps1_7 (after hostOps1_6 (after hostOps1_5 (after hostOps1_4 (after hostOps1_3 (after hostOps1_2
    (after hostOps1_1 (after hostOps1 (W2 (F := Ideal) m ρ c)))))))) (Proc.devRef .tc main_v13) = _
  after_results_simp

/-- The padded column of relation types as region 1 finds it. -/
theorem W10_v12 (c : Dev nD) :
    W10 (F := Ideal) m ρ c (Proc.devRef .tc main_v12)
      = shapeCast S301056x1 (pad S301056 ![0] ![1056] ![0]
          (shapeCast S300000 (W2 (F := Ideal) m ρ c (Proc.devRef .tc main_arg2)) shapeCasts_S1x300000_S300000)
          (id (constantI S_ 32 0#32)) pads_S300000_S301056_010560 h_S_) shapeCasts_S301056_S301056x1 := by
  show after hostOps1_7 (after hostOps1_6 (after hostOps1_5 (after hostOps1_4 (after hostOps1_3 (after hostOps1_2
    (after hostOps1_1 (after hostOps1 (W2 (F := Ideal) m ρ c)))))))) (Proc.devRef .tc main_v12) = _
  after_results_simp
  rfl

/-- The padded head-minus-tail vectors as region 1 finds them: the shared row-fetch chain applied to what region 0 left
    and to the edge table, padded with zero rows. The printed operations are the chain's, one for one. -/
theorem W10_v10 (c : Dev nD) :
    W10 (F := Ideal) m ρ c (Proc.devRef .tc main_v10)
      = pad S301056x256 ![0, 0] ![1056, 0] ![0, 0]
          (Cert.EdgeScore.headTail (W2 (F := Ideal) m ρ c (Proc.devRef .tc main_v1)) (W2 (F := Ideal) m ρ c (Proc.devRef .tc main_arg1)))
          (sitofp .f32 (constantI S_ 32 0#32) : FVec Ideal S_ .f32) pads_S300000x256_S301056x256_010560_000 h_S_ := by
  show after hostOps1_7 (after hostOps1_6 (after hostOps1_5 (after hostOps1_4 (after hostOps1_3 (after hostOps1_2
    (after hostOps1_1 (after hostOps1 (W2 (F := Ideal) m ρ c)))))))) (Proc.devRef .tc main_v10) = _
  after_results_simp
  dsimp only [TRef.toBuf, TRef.ofBuf, cast_eq]
  rfl

/-- Region 1 leaves the masked lane sums of the three arrays it found. -/
theorem W11_v14 (c : Dev nD) :
    W11 (F := Ideal) m ρ c (Proc.devRef .tc main_v14)
      = Cert.KernelIdeal.ScoreValue.Sc (W10 (F := Ideal) m ρ c (Proc.devRef .tc main_v10))
          (W10 (F := Ideal) m ρ c (Proc.devRef .tc main_v13)) (W10 (F := Ideal) m ρ c (Proc.devRef .tc main_v12)) :=
  (W11_arr m ρ c 3).trans (Cert.KernelIdeal.ScoreValue.region1_array (V10 (F := Ideal) m ρ) c)

/-- The result array is the first 300000 rows of region 1's output column, laid as one row. -/
theorem W12_v17 (c : Dev nD) :
    W12 (F := Ideal) m ρ c (Proc.devRef .tc main_v17)
      = shapeCast S1x300000 (shapeCast S300000 (extractStridedSlice S300000x1 ![0, 0]
          (W11 (F := Ideal) m ρ c (Proc.devRef .tc main_v14)) slices_S301056x1_S300000x1_0_0)
          shapeCasts_S300000x1_S300000) shapeCasts_S300000_S1x300000 := by
  show after hostOps2 (W11 (F := Ideal) m ρ c) (Proc.devRef .tc main_v17) = _
  after_results_simp
  rfl

/-! ## The result -/

/-- THE KERNEL'S VALUE: with every relation-type word below 500, the result array at the end of the run is the
    specification of the launch contents of the five arguments. -/
theorem kernel_value (c : Dev nD)
    (hty : ∀ e : Fin 300000, (m ((c : Thread nD τ).loc main_arg2) (ix2 (0 : Fin 1) e)).toNat < 500) :
    W12 (F := Ideal) m ρ c (Proc.devRef .tc main_v17)
      = Cert.EdgeScore.G (m ((c : Thread nD τ).loc main_arg0)) (m ((c : Thread nD τ).loc main_arg1))
          (m ((c : Thread nD τ).loc main_arg2)) (m ((c : Thread nD τ).loc main_arg3)) (m ((c : Thread nD τ).loc main_arg4)) := by
  rw [W12_v17 m ρ c, W11_v14 m ρ c]
  refine row_of_column _ _ fun e e' he => ?_
  -- the three arrays region 1 found, at row e: the pads are the identity below row 300000
  refine masked_row _ _ _ _ _ _ e e' ?_ (fun b => ?_) (fun b r => ?_) (hty e)
  · rw [W10_v12 m ρ c, column_at, padded_words_at _ _ e e' he, flattened_row_at, W2_arg2 m ρ c]
  · rw [W10_v10 m ρ c, padded_rows_at _ _ e e' he b, W2_v1 m ρ c, W2_arg1 m ρ c]
  · rw [W10_v13 m ρ c, transposed_basis_at, W2_arg4 m ρ c]

end Cert.KernelIdeal.HostValue

end
-- ==== Proof.RRun.lean ====
/-
  The idealized reference's run. Its @main is a straight line of host operations (the two row fetches are calls of one
  outlined function, whose operations run in place over each call's own buffers), so every weakly fair execution
  terminates with each buffer at the fold of the operations' results over the launch memory.
-/
import proofs.«411763_j66984309949054_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's host operations in order, each call's operations listed in place over that call's buffers: the
    contraction of the first argument with the fourth and row 0 of the index pair (three), the row fetch at those
    indices (twenty-three: the index wrapped into range by a select — the one operation of the nested call —, the
    range test reduced to one flag per index, the gather, and the select that keeps a fetched row only where the
    flag holds), row 1 of the index pair (two), the row fetch at those indices (twenty-three again, over the second
    call's buffers), then the difference of the fetched rows, its contraction with the fifth argument and the pick
    of one entry per row, at the column the third argument names (twenty-three). -/
abbrev ops : List (HloOp τ sig (Elt F)) :=
  [ binary main_arg0 main_arg3 main_v0 ((fun l r => Host.dotGeneral dot_S100000x512_S256x512_S100000x256_1_1_0_0_n_n none l r) : (⟨S100000x512, .f32⟩ : BufTy).Contents (Elt F) → (⟨S256x512, .f32⟩ : BufTy).Contents (Elt F) → (⟨S100000x256, .f32⟩ : BufTy).Contents (Elt F)),
    unary main_arg1 main_v1 ((extractStridedSlice S1x300000 ![0, 0] · slices_S2x300000_S1x300000_0_0) : (⟨S2x300000, .i32⟩ : BufTy).Contents (Elt F) → (⟨S1x300000, .i32⟩ : BufTy).Contents (Elt F)),
    reshape main_v1 main_v2 rfl shapeCasts_S1x300000_S300000,
    -- the first row fetch: rows of %0 at the indices %2
    TRef.nullary main_call0.c (constantI S_ 32 0#32),
    TRef.unary main_call0.c main_call0.v0 (broadcastInDim S300000 ![] bcast_S_S300000),
    TRef.binary (.of main_v2 : TRef sig ⟨S300000, .i32⟩) main_call0.v0 main_call0.v1 (cmpi .slt),
    TRef.nullary main_call0.c_0 (constantI S_ 32 100000#32),
    TRef.unary main_call0.c_0 main_call0.v2 (broadcastInDim S300000 ![] bcast_S_S300000),
    TRef.binary (.of main_v2 : TRef sig ⟨S300000, .i32⟩) main_call0.v2 main_call0.v3 addi,
    TRef.ternary main_call0.v1 main_call0.v3 (.of main_v2 : TRef sig ⟨S300000, .i32⟩) main_call0.call0.v0 select,
    TRef.unary main_call0.call0.v0 main_call0.v5 (broadcastInDim S300000x1 ![0] bcast_S300000_S300000x1_0),
    TRef.nullary main_call0.c_1 (constantI S1 32 99999#32),
    TRef.nullary main_call0.c_2 (constantI S_ 32 0#32),
    TRef.unary main_call0.c_2 main_call0.v6 (broadcastInDim S300000x1 ![] bcast_S_S300000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S300000x1 ![0, 1] bcast_S1x1_S300000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S300000x1_S300000_d1 h_S_),
    TRef.binary (.of main_v0 : TRef sig ⟨S100000x256, .f32⟩) main_call0.v5 main_call0.v13 (fun x i => Host.gather gather_S100000x256_S300000x1_S300000x256_1_0_n_n_0_1_1256 x i),
    TRef.unary main_call0.v12 main_call0.v14 (broadcastInDim S300000x256 ![0] bcast_S300000_S300000x256_0),
    TRef.nullary main_call0.cst (constant S_ .f32 0x7FC00000#32),
    TRef.unary main_call0.cst main_call0.v15 (broadcastInDim S300000x256 ![] bcast_S_S300000x256),
    TRef.ternary main_call0.v14 main_call0.v13 main_call0.v15 main_call0.v16 select,
    unary main_arg1 main_v4 ((extractStridedSlice S1x300000 ![1, 0] · slices_S2x300000_S1x300000_1_0) : (⟨S2x300000, .i32⟩ : BufTy).Contents (Elt F) → (⟨S1x300000, .i32⟩ : BufTy).Contents (Elt F)),
    reshape main_v4 main_v5 rfl shapeCasts_S1x300000_S300000,
    -- the second row fetch: rows of %0 at the indices %5
    TRef.nullary main_call1.c (constantI S_ 32 0#32),
    TRef.unary main_call1.c main_call1.v0 (broadcastInDim S300000 ![] bcast_S_S300000),
    TRef.binary (.of main_v5 : TRef sig ⟨S300000, .i32⟩) main_call1.v0 main_call1.v1 (cmpi .slt),
    TRef.nullary main_call1.c_0 (constantI S_ 32 100000#32),
    TRef.unary main_call1.c_0 main_call1.v2 (broadcastInDim S300000 ![] bcast_S_S300000),
    TRef.binary (.of main_v5 : TRef sig ⟨S300000, .i32⟩) main_call1.v2 main_call1.v3 addi,
    TRef.ternary main_call1.v1 main_call1.v3 (.of main_v5 : TRef sig ⟨S300000, .i32⟩) main_call1.call0.v0 select,
    TRef.unary main_call1.call0.v0 main_call1.v5 (broadcastInDim S300000x1 ![0] bcast_S300000_S300000x1_0),
    TRef.nullary main_call1.c_1 (constantI S1 32 99999#32),
    TRef.nullary main_call1.c_2 (constantI S_ 32 0#32),
    TRef.unary main_call1.c_2 main_call1.v6 (broadcastInDim S300000x1 ![] bcast_S_S300000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S300000x1 ![0, 1] bcast_S1x1_S300000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S300000x1_S300000_d1 h_S_),
    TRef.binary (.of main_v0 : TRef sig ⟨S100000x256, .f32⟩) main_call1.v5 main_call1.v13 (fun x i => Host.gather gather_S100000x256_S300000x1_S300000x256_1_0_n_n_0_1_1256 x i),
    TRef.unary main_call1.v12 main_call1.v14 (broadcastInDim S300000x256 ![0] bcast_S300000_S300000x256_0),
    TRef.nullary main_call1.cst (constant S_ .f32 0x7FC00000#32),
    TRef.unary main_call1.cst main_call1.v15 (broadcastInDim S300000x256 ![] bcast_S_S300000x256),
    TRef.ternary main_call1.v14 main_call1.v13 main_call1.v15 main_call1.v16 select,
    binary main_v3 main_v6 main_v7 (subf : (⟨S300000x256, .f32⟩ : BufTy).Contents (Elt F) → (⟨S300000x256, .f32⟩ : BufTy).Contents (Elt F) → (⟨S300000x256, .f32⟩ : BufTy).Contents (Elt F)),
    binary main_v7 main_arg4 main_v8 ((fun l r => Host.dotGeneral dot_S300000x256_S500x256_S300000x500_1_1_0_0_n_n none l r) : (⟨S300000x256, .f32⟩ : BufTy).Contents (Elt F) → (⟨S500x256, .f32⟩ : BufTy).Contents (Elt F) → (⟨S300000x500, .f32⟩ : BufTy).Contents (Elt F)),
    nullary main_v9 (iotaInDim S300000 32 0),
    reshape main_arg2 main_v10 rfl shapeCasts_S1x300000_S300000,
    nullary main_c (constantI S_ 32 0#32),
    unary main_c main_v11 (broadcastInDim S300000 ![] bcast_S_S300000 : (⟨S_, .i32⟩ : BufTy).Contents (Elt F) → (⟨S300000, .i32⟩ : BufTy).Contents (Elt F)),
    binary main_v9 main_v11 main_v12 (cmpi .slt : (⟨S300000, .i32⟩ : BufTy).Contents (Elt F) → (⟨S300000, .i32⟩ : BufTy).Contents (Elt F) → (⟨S300000, .i1⟩ : BufTy).Contents (Elt F)),
    nullary main_c_0 (constantI S_ 32 300000#32),
    unary main_c_0 main_v13 (broadcastInDim S300000 ![] bcast_S_S300000 : (⟨S_, .i32⟩ : BufTy).Contents (Elt F) → (⟨S300000, .i32⟩ : BufTy).Contents (Elt F)),
    binary main_v9 main_v13 main_v14 (addi : (⟨S300000, .i32⟩ : BufTy).Contents (Elt F) → (⟨S300000, .i32⟩ : BufTy).Contents (Elt F) → (⟨S300000, .i32⟩ : BufTy).Contents (Elt F)),
    ternary main_v12 main_v14 main_v9 main_v15 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    nullary main_c_1 (constantI S_ 32 0#32),
    unary main_c_1 main_v16 (broadcastInDim S300000 ![] bcast_S_S300000 : (⟨S_, .i32⟩ : BufTy).Contents (Elt F) → (⟨S300000, .i32⟩ : BufTy).Contents (Elt F)),
    binary main_v10 main_v16 main_v17 (cmpi .slt : (⟨S300000, .i32⟩ : BufTy).Contents (Elt F) → (⟨S300000, .i32⟩ : BufTy).Contents (Elt F) → (⟨S300000, .i1⟩ : BufTy).Contents (Elt F)),
    nullary main_c_2 (constantI S_ 32 500#32),
    unary main_c_2 main_v18 (broadcastInDim S300000 ![] bcast_S_S300000 : (⟨S_, .i32⟩ : BufTy).Contents (Elt F) → (⟨S300000, .i32⟩ : BufTy).Contents (Elt F)),
    binary main_v10 main_v18 main_v19 (addi : (⟨S300000, .i32⟩ : BufTy).Contents (Elt F) → (⟨S300000, .i32⟩ : BufTy).Contents (Elt F) → (⟨S300000, .i32⟩ : BufTy).Contents (Elt F)),
    ternary main_v17 main_v19 main_v10 main_v20 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v15 main_v21 (broadcastInDim S300000x1 ![0] bcast_S300000_S300000x1_0 : (⟨S300000, .i32⟩ : BufTy).Contents (Elt F) → (⟨S300000x1, .i32⟩ : BufTy).Contents (Elt F)),
    unary main_v20 main_v22 (broadcastInDim S300000x1 ![0] bcast_S300000_S300000x1_0 : (⟨S300000, .i32⟩ : BufTy).Contents (Elt F) → (⟨S300000x1, .i32⟩ : BufTy).Contents (Elt F)),
    binary main_v21 main_v22 main_v23 ((fun a b => concatenate S300000x2 1 [⟨S300000x1, a⟩, ⟨S300000x1, b⟩] concatenates_S300000x1_S300000x1_S300000x2_d1) : (⟨S300000x1, .i32⟩ : BufTy).Contents (Elt F) → (⟨S300000x1, .i32⟩ : BufTy).Contents (Elt F) → (⟨S300000x2, .i32⟩ : BufTy).Contents (Elt F)),
    binary main_v8 main_v23 main_v24 ((fun x i => Host.gather gather_S300000x500_S300000x2_S300000_n_01_n_n_01_1_11 x i) : (⟨S300000x500, .f32⟩ : BufTy).Contents (Elt F) → (⟨S300000x2, .i32⟩ : BufTy).Contents (Elt F) → (⟨S300000, .f32⟩ : BufTy).Contents (Elt F)),
    reshape main_v24 main_v25 rfl shapeCasts_S300000_S1x300000 ]

/-- One row fetch as a list over its two arguments and one call's buffers: the index wrapped into range (a negative
    index moved up by the row count, by the select that is the nested call's one operation), the range test
    `0 ≤ i ≤ 99999` reduced to one flag per index, the gather, and the select keeping a fetched row only where the
    flag holds. -/
def takeOps (a0 : TRef sig ⟨S100000x256, .f32⟩) (a1 : TRef sig ⟨S300000, .i32⟩) (φ : fn_take.Bufs) :
    List (HloOp τ sig (Elt F)) :=
  [ TRef.nullary φ.c (constantI S_ 32 0#32),
    TRef.unary φ.c φ.v0 (broadcastInDim S300000 ![] bcast_S_S300000),
    TRef.binary a1 φ.v0 φ.v1 (cmpi .slt),
    TRef.nullary φ.c_0 (constantI S_ 32 100000#32),
    TRef.unary φ.c_0 φ.v2 (broadcastInDim S300000 ![] bcast_S_S300000),
    TRef.binary a1 φ.v2 φ.v3 addi,
    TRef.ternary φ.v1 φ.v3 a1 φ.call0.v0 select,
    TRef.unary φ.call0.v0 φ.v5 (broadcastInDim S300000x1 ![0] bcast_S300000_S300000x1_0),
    TRef.nullary φ.c_1 (constantI S1 32 99999#32),
    TRef.nullary φ.c_2 (constantI S_ 32 0#32),
    TRef.unary φ.c_2 φ.v6 (broadcastInDim S300000x1 ![] bcast_S_S300000x1),
    TRef.binary φ.v5 φ.v6 φ.v7 (cmpi .sge),
    TRef.unary φ.c_1 φ.v8 (broadcastInDim S1x1 ![1] bcast_S1_S1x1_1),
    TRef.unary φ.v8 φ.v9 (broadcastInDim S300000x1 ![0, 1] bcast_S1x1_S300000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S300000x1_S300000_d1 h_S_),
    TRef.binary a0 φ.v5 φ.v13 (fun x i => Host.gather gather_S100000x256_S300000x1_S300000x256_1_0_n_n_0_1_1256 x i),
    TRef.unary φ.v12 φ.v14 (broadcastInDim S300000x256 ![0] bcast_S300000_S300000x256_0),
    TRef.nullary φ.cst (constant S_ .f32 0x7FC00000#32),
    TRef.unary φ.cst φ.v15 (broadcastInDim S300000x256 ![] bcast_S_S300000x256),
    TRef.ternary φ.v14 φ.v13 φ.v15 φ.v16 select ]

/-- The outlined row fetch is that line: its body, with the nested call's body in place, is one chain of host steps
    once sequencing is reassociated. -/
theorem take_eq (a0 : TRef sig ⟨S100000x256, .f32⟩) (a1 : TRef sig ⟨S300000, .i32⟩) (φ : fn_take.Bufs) :
    fn_take.body (F := F) a0 a1 φ = seq (takeOps a0 a1 φ) := by
  simp only [fn_take.body, fn_where.body, takeOps, seq, bind_assoc, pure_bind]

/-- A host step before a line is the line with that operation in front. -/
theorem step_seq (op : HloOp τ sig (Elt F)) (l : List (HloOp τ sig (Elt F))) :
    ((hlo rfl op fun _ => .ret (⟨⟩ : PUnit)) >>= fun _ => seq l
      : Prog (TpuEff nD τ sig (Elt F) (Pipeline.Sig Λ₀ (Fin 0) fun p => (pcfgs (F := F) p).Adm) .tc) PUnit) = seq (op :: l) := rfl

/-- A host step before the return is the line of that one operation. -/
theorem step_ret (op : HloOp τ sig (Elt F)) :
    ((hlo rfl op fun _ => .ret (⟨⟩ : PUnit)) >>= fun _ => pure ⟨⟩
      : Prog (TpuEff nD τ sig (Elt F) (Pipeline.Sig Λ₀ (Fin 0) fun p => (pcfgs (F := F) p).Adm) .tc) PUnit) = seq [op] := rfl

/-- A row fetch before a line is its operations in front of the line's. -/
theorem take_seq (a0 : TRef sig ⟨S100000x256, .f32⟩) (a1 : TRef sig ⟨S300000, .i32⟩) (φ : fn_take.Bufs)
    (l : List (HloOp τ sig (Elt F))) :
    (fn_take.body (F := F) a0 a1 φ >>= fun _ => seq l) = seq (takeOps a0 a1 φ ++ l) := by
  rw [take_eq, seq_append]

set_option maxRecDepth 2048 in
/-- @main is that straight line: from the return backwards each host step goes in front of the line behind it, and
    each row fetch puts its operations there; the list so built is the literal one by computation. -/
theorem main_eq (c : Dev nD) : main (F := F) c = seq ops := by
  simp only [main, step_ret, step_seq, take_seq]
  rfl

/-- No TensorCore buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Each operation touches TensorCore buffers only. -/
theorem ops_sub : (ops : List (HloOp τ sig (Elt F))).Forall fun op => op.bufs ⊆ tcRefs τ sig :=
  ⟨binary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., nullary_bufs_sub .., reshape_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., reshape_bufs_sub ..⟩

/-- From any memory with zero counters every weakly fair execution of @main terminates, nothing faulting, with every
    buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.HandRun

end
-- ==== Proof.RDots.lean ====
/-
  The idealized reference's two matrix products, read at an entry.

  At the ideal instance a `dot_general` with one contracted axis is the plain sum, over that axis, of the products of the
  two operands' entries. The first product contracts the 512 embedding positions of X : [100000, 512] and
  W : [256, 512], giving the projection T[n, b] = Σ_k X[n, k] · W[b, k]; the second contracts the 256 basis positions of
  H : [300000, 256] and E : [500, 256], giving every edge's score against every relation, Σ_b H[e, b] · E[r, b].
-/
import proofs.«411763_j66984309949054_1_alg».proof.Proof.Gen.ReferenceIdeal
import proofs.«411763_j66984309949054_1_alg».proof.Proof.Spec
import Idealize.ShloMosaic.Lib.ValueIdx
import Idealize.ShloMosaic.PureOps.Ideal.Laws

noncomputable section

open scoped BigOperators

namespace Cert.ReferenceIdeal.RefDots

open Cert.ReferenceIdeal Cert.ReferenceIdeal.Gen Idealize.ShloMosaic Idealize.ShloMosaic.ValueIdx

/-! ## Where each operand is read

  Both records contract axis 1 of the left operand with axis 1 of the right and keep axis 0 of each. So at result index
  `j` and contraction position `k` the left operand is read at row `j 0`, the right operand at row `j 1`, and both at
  column `k`. Each coordinate is stated on its own, at the literal axis. -/

theorem projLhs_0 (j : S100000x256.Idx) (k : dot_S100000x512_S256x512_S100000x256_1_1_0_0_n_n.contr.Idx) :
    (dot_S100000x512_S256x512_S100000x256_1_1_0_0_n_n.lhsIdx j k 0).val = (j 0).val := rfl

theorem projLhs_1 (j : S100000x256.Idx) (k : dot_S100000x512_S256x512_S100000x256_1_1_0_0_n_n.contr.Idx) :
    (dot_S100000x512_S256x512_S100000x256_1_1_0_0_n_n.lhsIdx j k 1).val = (k ⟨0, by decide⟩).val := rfl

theorem projRhs_0 (j : S100000x256.Idx) (k : dot_S100000x512_S256x512_S100000x256_1_1_0_0_n_n.contr.Idx) :
    (dot_S100000x512_S256x512_S100000x256_1_1_0_0_n_n.rhsIdx j k 0).val = (j 1).val := rfl

theorem projRhs_1 (j : S100000x256.Idx) (k : dot_S100000x512_S256x512_S100000x256_1_1_0_0_n_n.contr.Idx) :
    (dot_S100000x512_S256x512_S100000x256_1_1_0_0_n_n.rhsIdx j k 1).val = (k ⟨0, by decide⟩).val := rfl

theorem scoreLhs_0 (j : S300000x500.Idx) (k : dot_S300000x256_S500x256_S300000x500_1_1_0_0_n_n.contr.Idx) :
    (dot_S300000x256_S500x256_S300000x500_1_1_0_0_n_n.lhsIdx j k 0).val = (j 0).val := rfl

theorem scoreLhs_1 (j : S300000x500.Idx) (k : dot_S300000x256_S500x256_S300000x500_1_1_0_0_n_n.contr.Idx) :
    (dot_S300000x256_S500x256_S300000x500_1_1_0_0_n_n.lhsIdx j k 1).val = (k ⟨0, by decide⟩).val := rfl

theorem scoreRhs_0 (j : S300000x500.Idx) (k : dot_S300000x256_S500x256_S300000x500_1_1_0_0_n_n.contr.Idx) :
    (dot_S300000x256_S500x256_S300000x500_1_1_0_0_n_n.rhsIdx j k 0).val = (j 1).val := rfl

theorem scoreRhs_1 (j : S300000x500.Idx) (k : dot_S300000x256_S500x256_S300000x500_1_1_0_0_n_n.contr.Idx) :
    (dot_S300000x256_S500x256_S300000x500_1_1_0_0_n_n.rhsIdx j k 1).val = (k ⟨0, by decide⟩).val := rfl

/-! ## The first product -/

/-- Entry (n, b) of the first product: the sum over the contraction index is re-indexed by its one coordinate, a
    position k in 0..511, and the two operands are read at (n, k) and (b, k). -/
theorem proj_dot_apply (X : FVec Ideal S100000x512 .f32) (W : FVec Ideal S256x512 .f32) (n : Fin 100000) (b : Fin 256) :
    Host.dotGeneral dot_S100000x512_S256x512_S100000x256_1_1_0_0_n_n none X W (ix2 n b) = Cert.EdgeScore.projAt X W n b := by
  show FloatOps.dotGeneral _ none _ X W (ix2 n b) = _
  rw [Ideal.dotGeneral_apply,
    ← Equiv.sum_comp (contrEquiv1 dot_S100000x512_S256x512_S100000x256_1_1_0_0_n_n 512 rfl rfl).symm]
  unfold Cert.EdgeScore.projAt
  refine Finset.sum_congr rfl fun c _ => ?_
  have hk := contrEquiv1_symm_val dot_S100000x512_S256x512_S100000x256_1_1_0_0_n_n 512 rfl rfl c
  have hl : dot_S100000x512_S256x512_S100000x256_1_1_0_0_n_n.lhsIdx (ix2 n b)
      ((contrEquiv1 dot_S100000x512_S256x512_S100000x256_1_1_0_0_n_n 512 rfl rfl).symm c) = ix2 n c := by
    funext ax; apply Fin.ext
    match ax with
    | ⟨0, _⟩ => exact projLhs_0 _ _
    | ⟨1, _⟩ => exact (projLhs_1 _ _).trans hk
  have hr : dot_S100000x512_S256x512_S100000x256_1_1_0_0_n_n.rhsIdx (ix2 n b)
      ((contrEquiv1 dot_S100000x512_S256x512_S100000x256_1_1_0_0_n_n 512 rfl rfl).symm c) = ix2 b c := by
    funext ax; apply Fin.ext
    match ax with
    | ⟨0, _⟩ => exact projRhs_0 _ _
    | ⟨1, _⟩ => exact (projRhs_1 _ _).trans hk
  rw [hl, hr]

/-- The first product is the projection. -/
theorem proj_dot (X : FVec Ideal S100000x512 .f32) (W : FVec Ideal S256x512 .f32) :
    Host.dotGeneral dot_S100000x512_S256x512_S100000x256_1_1_0_0_n_n none X W = Cert.EdgeScore.proj X W := by
  funext i
  obtain ⟨n, b, rfl⟩ : ∃ (n : Fin 100000) (b : Fin 256), i = ix2 n b := ⟨i 0, i 1, eq_ix2 i⟩
  exact proj_dot_apply X W n b

/-! ## The second product -/

/-- The second product, at edge `e` and relation `r`, is that edge's score against that relation. -/
theorem score_dot (H : FVec Ideal S300000x256 .f32) (E : FVec Ideal S500x256 .f32) (e : Fin 300000) (r : Fin 500) :
    Host.dotGeneral dot_S300000x256_S500x256_S300000x500_1_1_0_0_n_n none H E (ix2 e r) = Cert.EdgeScore.relScoreAt H E e r := by
  show FloatOps.dotGeneral _ none _ H E (ix2 e r) = _
  rw [Ideal.dotGeneral_apply,
    ← Equiv.sum_comp (contrEquiv1 dot_S300000x256_S500x256_S300000x500_1_1_0_0_n_n 256 rfl rfl).symm]
  unfold Cert.EdgeScore.relScoreAt
  refine Finset.sum_congr rfl fun c _ => ?_
  have hk := contrEquiv1_symm_val dot_S300000x256_S500x256_S300000x500_1_1_0_0_n_n 256 rfl rfl c
  have hl : dot_S300000x256_S500x256_S300000x500_1_1_0_0_n_n.lhsIdx (ix2 e r)
      ((contrEquiv1 dot_S300000x256_S500x256_S300000x500_1_1_0_0_n_n 256 rfl rfl).symm c) = ix2 e c := by
    funext ax; apply Fin.ext
    match ax with
    | ⟨0, _⟩ => exact scoreLhs_0 _ _
    | ⟨1, _⟩ => exact (scoreLhs_1 _ _).trans hk
  have hr : dot_S300000x256_S500x256_S300000x500_1_1_0_0_n_n.rhsIdx (ix2 e r)
      ((contrEquiv1 dot_S300000x256_S500x256_S300000x500_1_1_0_0_n_n 256 rfl rfl).symm c) = ix2 r c := by
    funext ax; apply Fin.ext
    match ax with
    | ⟨0, _⟩ => exact scoreRhs_0 _ _
    | ⟨1, _⟩ => exact (scoreRhs_1 _ _).trans hk
  rw [hl, hr]

end Cert.ReferenceIdeal.RefDots

end
-- ==== Proof.RValue.lean ====
/-
  What the idealized reference computes, as one term of its argument arrays, and that this term is the specification.

  The reference projects with one matrix product contracting the 512 embedding positions, fetches and subtracts rows
  through the shared chain, scores every edge against every relation with one matrix product contracting the 256 basis
  positions, and then reads, for edge e, entry (e, type e) of that [300000, 500] table with a gather whose start indices
  are the pairs (e, type e), a negative component having the axis length added first. When every type word lies in
  [0, 500) no component is negative or clamped, so the gather reads exactly the score of edge e against its own relation.
-/
import proofs.«411763_j66984309949054_1_alg».proof.Proof.Gen.ReferenceIdeal
import proofs.«411763_j66984309949054_1_alg».proof.Proof.Spec
import proofs.«411763_j66984309949054_1_alg».proof.Proof.RDots
import Idealize.ShloMosaic.Lib.ValueIdx
import Idealize.ShloMosaic.Lib.Pipeline.Value
import Idealize.ShloMosaic.Lib.StableHlo.Predicate
import Idealize.ShloMosaic.PureOps.Ideal.Laws

set_option maxRecDepth 16384

noncomputable section

open scoped BigOperators

namespace Cert.ReferenceIdeal.RefValue

open Cert.ReferenceIdeal Cert.ReferenceIdeal.Gen Idealize.ShloMosaic Idealize.ShloMosaic.ValueIdx

/-- The reference's result as one term of the argument arrays: its operations composed, the shared row-fetch chain
    kept as one function. -/
def refTerm (X : FVec Ideal S100000x512 .f32) (A : IVec S2x300000 32) (Ty : IVec S1x300000 32)
    (W : FVec Ideal S256x512 .f32) (E : FVec Ideal S500x256 .f32) : FVec Ideal S1x300000 .f32 :=
  let T : FVec Ideal S100000x256 .f32 := Host.dotGeneral dot_S100000x512_S256x512_S100000x256_1_1_0_0_n_n none X W
  let H : FVec Ideal S300000x256 .f32 := Cert.EdgeScore.headTail T A
  let S : FVec Ideal S300000x500 .f32 := Host.dotGeneral dot_S300000x256_S500x256_S300000x500_1_1_0_0_n_n none H E
  let io : IVec S300000 32 := iotaInDim S300000 32 0
  let ioN : IVec S300000 32 :=
    select (cmpi .slt io (broadcastInDim S300000 ![] bcast_S_S300000 (constantI S_ 32 0#32)))
      (addi io (broadcastInDim S300000 ![] bcast_S_S300000 (constantI S_ 32 300000#32))) io
  let ty : IVec S300000 32 := shapeCast S300000 Ty shapeCasts_S1x300000_S300000
  let tyN : IVec S300000 32 :=
    select (cmpi .slt ty (broadcastInDim S300000 ![] bcast_S_S300000 (constantI S_ 32 0#32)))
      (addi ty (broadcastInDim S300000 ![] bcast_S_S300000 (constantI S_ 32 500#32))) ty
  let idx : IVec S300000x2 32 :=
    concatenate S300000x2 1 [⟨S300000x1, broadcastInDim S300000x1 ![0] bcast_S300000_S300000x1_0 ioN⟩,
      ⟨S300000x1, broadcastInDim S300000x1 ![0] bcast_S300000_S300000x1_0 tyN⟩] concatenates_S300000x1_S300000x1_S300000x2_d1
  shapeCast S1x300000 (Host.gather gather_S300000x500_S300000x2_S300000_n_01_n_n_01_1_11 S idx) shapeCasts_S300000_S1x300000

/-! ## Reading the pair gather and its start table at one edge -/

/-- A gather whose two operand axes are both collapsed and start-indexed, the start table an [n × 2] array of
    pairs: result position `e` reads the operand at the pair in row `e`, each component read as a signed word and
    clamped into its axis. -/
theorem gather_pair {α : Type} {N M n w : Nat} (d : GatherDims ⟨2, ![N, M]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, M]⟩ : Shape).Idx → α) (idx : IVec ⟨2, ![n, 2]⟩ w) (e : Fin n) (hN : 0 < N) (hM : 0 < M) :
    Host.gather d x idx (ix1 e)
      = x (ix2 ⟨min (idx (ix2 e (0 : Fin 2))).toInt.toNat (N - 1), by omega⟩
            ⟨min (idx (ix2 e (1 : Fin 2))).toInt.toNat (M - 1), by omega⟩) := by
  unfold Host.gather
  congr 1
  funext a
  -- the batch coordinate of the start table: the result's one axis, whatever name it is asked by
  have hbatch : ∀ (c : Fin d.startIndexMap.length) (q : Fin 2), c.val = q.val →
      d.siIdx (ix1 e) c = ix2 e q := by
    intro c q hcq
    funext b
    match b with
    | ⟨0, _⟩ =>
      unfold GatherDims.siIdx
      rw [dif_neg (by rw [hivd]; simp)]
      unfold GatherDims.siCoord
      apply Fin.ext
      simp only [Fin.val_cast]
      have ev : ∀ X : Fin 1, ((ix1 e : (⟨1, ![n]⟩ : Shape).Idx) X).val = e.val := fun X => by
        have hX : X = 0 := Subsingleton.elim _ _
        subst hX; rfl
      exact ev _
    | ⟨1, _⟩ =>
      unfold GatherDims.siIdx
      rw [dif_pos (by rw [hivd])]
      apply Fin.ext
      exact hcq
  have hb : ∀ a : Fin 2, a ∉ d.operandBatchingDims := fun a => by rw [hob]; exact List.not_mem_nil
  have hk : ∀ a : Fin 2, a ∉ d.sKept := fun a => by
    rw [GatherDims.mem_sKept, hcoll]
    match a with
    | ⟨0, _⟩ => simp
    | ⟨1, _⟩ => simp
  have hm : ∀ a : Fin 2, a ∈ d.startIndexMap := fun a => by
    rw [hsim]
    match a with
    | ⟨0, _⟩ => simp
    | ⟨1, _⟩ => simp
  have hsl : ∀ a : Fin 2, d.sliceSizes a = 1 := fun a => d.slice_collapsed a (by
    rw [hcoll]
    match a with
    | ⟨0, _⟩ => simp
    | ⟨1, _⟩ => simp)
  apply Fin.ext
  simp only [GatherDims.operandIdx, GatherDims.batchCoord_eq_zero _ _ _ (hb a), GatherDims.offCoord_eq_zero _ _ _ (hk a),
    Nat.add_zero, GatherDims.start, dif_pos (hm a)]
  match a with
  | ⟨0, _⟩ =>
    rw [hbatch _ (0 : Fin 2) (by show List.idxOf (0 : Fin 2) d.startIndexMap = 0; rw [hsim]; simp)]
    show min _ (N - d.sliceSizes 0) = min _ (N - 1)
    rw [hsl 0]
  | ⟨1, _⟩ =>
    rw [hbatch _ (1 : Fin 2) (by show List.idxOf (1 : Fin 2) d.startIndexMap = 1; rw [hsim]; simp)]
    show min _ (M - d.sliceSizes 1) = min _ (M - 1)
    rw [hsl 1]

/-- The same reading, at any pair of positions the two clamped components are shown to be. -/
theorem gather_pair_at {α : Type} {N M n w : Nat} (d : GatherDims ⟨2, ![N, M]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, M]⟩ : Shape).Idx → α) (idx : IVec ⟨2, ![n, 2]⟩ w) (e : Fin n) (hN : 0 < N) (hM : 0 < M)
    (p : Fin N) (q : Fin M)
    (hp : min (idx (ix2 e (0 : Fin 2))).toInt.toNat (N - 1) = p.val)
    (hq : min (idx (ix2 e (1 : Fin 2))).toInt.toNat (M - 1) = q.val) :
    Host.gather d x idx (ix1 e) = x (ix2 p q) := by
  rw [gather_pair d hcoll hob hsim hivd x idx e hN hM]
  congr 1
  funext a
  match a with
  | ⟨0, _⟩ => exact Fin.ext hp
  | ⟨1, _⟩ => exact Fin.ext hq

/-- A word below 2³¹ is not negative read signed, so "add the axis length where negative" leaves it as it is. -/
theorem wrap_keep (v c : BitVec 32) (hv : v.toNat < 2 ^ 31) :
    Scalar.select (IntOp.cmpi .slt v 0#32) (IntOp.addi v c) v = v := by
  have h : ¬ IntOp.cmpi .slt v 0#32 = 1#1 := by
    rw [StableHlo.Predicate.slt_iff_toNat hv (by decide)]
    exact Nat.not_lt_zero _
  rw [eq_zero_of_ne_one h, select_zero]

/-- The same on a vector of 300000 words, read at position `e`. -/
theorem wrap_apply (v : IVec S300000 32) (c : BitVec 32) (e : Fin 300000) (hv : (v (ix1 e)).toNat < 2 ^ 31) :
    select (cmpi .slt v (broadcastInDim S300000 ![] bcast_S_S300000 (constantI S_ 32 0#32)))
      (addi v (broadcastInDim S300000 ![] bcast_S_S300000 (constantI S_ 32 c))) v (ix1 e) = v (ix1 e) :=
  wrap_keep (v (ix1 e)) c hv

/-- A vector laid as an [300000 × 1] column reads, at (e, 0), the vector at `e`. -/
theorem col_apply (u : IVec S300000 32) (e : Fin 300000) :
    broadcastInDim S300000x1 ![0] bcast_S300000_S300000x1_0 u (ix2 e (0 : Fin 1)) = u (ix1 e) := by
  refine broadcastInDim_apply _ _ _ _ (ix1 e) (fun a => ?_)
  match a with
  | ⟨0, _⟩ =>
    exact (if_neg (show ¬ (300000 : Nat) = 1 by decide)).symm

/-- The start table is two columns side by side: its entry (e, 0) is the first column's word at `e`. -/
theorem pair_col0 (u v : IVec S300000 32) (e : Fin 300000) :
    concatenate S300000x2 1 [⟨S300000x1, broadcastInDim S300000x1 ![0] bcast_S300000_S300000x1_0 u⟩,
      ⟨S300000x1, broadcastInDim S300000x1 ![0] bcast_S300000_S300000x1_0 v⟩] concatenates_S300000x1_S300000x1_S300000x2_d1
      (ix2 e (0 : Fin 2)) = u (ix1 e) := by
  refine (concatenate_pair_apply_left (t := S300000x2) (s₁ := S300000x1) (s₂ := S300000x1) (1 : Fin 2) _ _ _ (ix2 e (0 : Fin 2)) rfl (ix2 e (0 : Fin 1)) (fun b => ?_)).trans
    (col_apply u e)
  match b with
  | ⟨0, _⟩ => rfl
  | ⟨1, _⟩ => rfl

/-- Its entry (e, 1) is the second column's word at `e`. -/
theorem pair_col1 (u v : IVec S300000 32) (e : Fin 300000) :
    concatenate S300000x2 1 [⟨S300000x1, broadcastInDim S300000x1 ![0] bcast_S300000_S300000x1_0 u⟩,
      ⟨S300000x1, broadcastInDim S300000x1 ![0] bcast_S300000_S300000x1_0 v⟩] concatenates_S300000x1_S300000x1_S300000x2_d1
      (ix2 e (1 : Fin 2)) = v (ix1 e) := by
  refine (concatenate_pair_apply_right (t := S300000x2) (s₁ := S300000x1) (s₂ := S300000x1) (1 : Fin 2) _ _ _ (ix2 e (1 : Fin 2)) rfl rfl (ix2 e (0 : Fin 1)) (fun b hb => ?_) rfl).trans
    (col_apply v e)
  match b with
  | ⟨0, _⟩ => rfl
  | ⟨1, _⟩ => exact absurd rfl hb

/-- The [1, 300000] type row viewed as a flat vector reads, at `e`, the row's entry (0, e). -/
theorem flat_apply (Ty : IVec S1x300000 32) (e : Fin 300000) :
    shapeCast S300000 Ty shapeCasts_S1x300000_S300000 (ix1 e) = Ty (ix2 (0 : Fin 1) e) := by
  refine shapeCast_apply _ _ (ix1 e) (ix2 (0 : Fin 1) e) ?_
  rw [Shape.rowMajor_val_two, Shape.rowMajor_val_one]
  show 0 * 300000 + e.val = e.val
  omega

/-- A flat vector viewed as a [1, 300000] row reads, at (0, e), the vector at `e`. -/
theorem row_apply {α : Type} (g : S300000.Idx → α) (e : Fin 300000) :
    shapeCast S1x300000 g shapeCasts_S300000_S1x300000 (ix2 (0 : Fin 1) e) = g (ix1 e) := by
  refine shapeCast_apply _ _ (ix2 (0 : Fin 1) e) (ix1 e) ?_
  rw [Shape.rowMajor_val_two, Shape.rowMajor_val_one]
  show e.val = 0 * 300000 + e.val
  omega

/-! ## The term is the specification -/

/-- Under relation types in [0, 500) the reference's term is the specification. -/
theorem refTerm_eq (X : FVec Ideal S100000x512 .f32) (A : IVec S2x300000 32) (Ty : IVec S1x300000 32)
    (W : FVec Ideal S256x512 .f32) (E : FVec Ideal S500x256 .f32)
    (hty : ∀ e : Fin 300000, (Ty (ix2 (0 : Fin 1) e)).toNat < 500) :
    refTerm X A Ty W E = Cert.EdgeScore.G X A Ty W E := by
  funext j
  -- the result is a [1, 300000] row: its index is (0, e)
  obtain ⟨e, rfl⟩ : ∃ e : Fin 300000, j = ix2 (0 : Fin 1) e := by
    refine ⟨j 1, ?_⟩
    have h0 : (j 0).val = 0 := by have := idx2_lt0 j; omega
    funext a
    match a with
    | ⟨0, _⟩ => exact Fin.ext h0
    | ⟨1, _⟩ => rfl
  have hw := hty e
  show refTerm X A Ty W E (ix2 (0 : Fin 1) e)
    = Cert.EdgeScore.relScoreAt (Cert.EdgeScore.headTail (Cert.EdgeScore.proj X W) A) E e
        (Cert.EdgeScore.relOf (Ty (ix2 (0 : Fin 1) e)))
  unfold refTerm
  dsimp only
  -- both sides now fetch rows of the same projected table
  rw [RefDots.proj_dot]
  generalize Cert.EdgeScore.headTail (Cert.EdgeScore.proj X W) A = H
  -- the outer view [300000] → [1, 300000] at (0, e), then the gather at e, then the score table's entry
  refine (row_apply _ e).trans ?_
  refine (gather_pair_at _ rfl rfl rfl rfl _ _ e (by decide) (by decide) e
    (Cert.EdgeScore.relOf (Ty (ix2 (0 : Fin 1) e))) ?_ ?_).trans (RefDots.score_dot H E e _)
  · -- the first component is the position e itself: not negative, not clamped
    have he := e.isLt
    rw [pair_col0, wrap_apply _ _ e (by
      show (BitVec.ofNat 32 e.val).toNat < 2 ^ 31
      rw [BitVec.toNat_ofNat]; omega)]
    show min (BitVec.ofNat 32 e.val).toInt.toNat (300000 - 1) = e.val
    rw [StableHlo.Predicate.toInt_ofNat_small e.val (by omega), Int.toNat_natCast]
    omega
  · -- the second component is the type word: below 500, so not negative, not clamped, and it names itself
    have hv : (shapeCast S300000 Ty shapeCasts_S1x300000_S300000 (ix1 e)).toNat < 2 ^ 31 := by
      rw [flat_apply]; omega
    rw [pair_col1, wrap_apply _ _ e hv, flat_apply, StableHlo.Predicate.toInt_eq_toNat_of_lt (by omega), Int.toNat_natCast,
      Cert.EdgeScore.relOf_val_of_lt hw]
    omega

end Cert.ReferenceIdeal.RefValue

end
-- ==== Proof.RResult.lean ====
/-
  The idealized reference's buffers at the end of its run: the result array is the reference's term of the launch
  contents of the five arguments (its operations composed, the two row fetches being the shared chain one for one), and
  no operation writes an argument array.
-/
import proofs.«411763_j66984309949054_1_alg».proof.Proof.RRun
import proofs.«411763_j66984309949054_1_alg».proof.Proof.RValue

set_option maxRecDepth 16384

noncomputable section

namespace Cert.ReferenceIdeal.RefResult

open Cert.ReferenceIdeal Cert.ReferenceIdeal.Gen Idealize.ShloMosaic Idealize.ShloMosaic.TcCoe Idealize.SL.Sem Idealize.ShloMosaic.StableHlo
open Cert.ReferenceIdeal.HandRun Cert.ReferenceIdeal.RefValue

variable (m : (ℓ : Loc nD τ sig) → Buf (Elt Ideal) ℓ)

/-- The fold of the reference's operations at its result buffer is its term of the arguments' launch contents. -/
theorem result_eq (d : Dev nD) :
    after (ops (F := Ideal)) (launchContents m d) (Proc.devRef .tc main_v25)
      = refTerm (m ((d.tc : Thread nD τ).loc main_arg0)) (m ((d.tc : Thread nD τ).loc main_arg1))
          (m ((d.tc : Thread nD τ).loc main_arg2)) (m ((d.tc : Thread nD τ).loc main_arg3)) (m ((d.tc : Thread nD τ).loc main_arg4)) := by
  after_results_simp
  dsimp only [TRef.toBuf, TRef.ofBuf, cast_eq]
  rfl

theorem arg0_eq (d : Dev nD) : after (ops (F := Ideal)) (launchContents m d) (Proc.devRef .tc main_arg0) = m ((d.tc : Thread nD τ).loc main_arg0) := by
  after_results_simp
theorem arg1_eq (d : Dev nD) : after (ops (F := Ideal)) (launchContents m d) (Proc.devRef .tc main_arg1) = m ((d.tc : Thread nD τ).loc main_arg1) := by
  after_results_simp
theorem arg2_eq (d : Dev nD) : after (ops (F := Ideal)) (launchContents m d) (Proc.devRef .tc main_arg2) = m ((d.tc : Thread nD τ).loc main_arg2) := by
  after_results_simp
theorem arg3_eq (d : Dev nD) : after (ops (F := Ideal)) (launchContents m d) (Proc.devRef .tc main_arg3) = m ((d.tc : Thread nD τ).loc main_arg3) := by
  after_results_simp
theorem arg4_eq (d : Dev nD) : after (ops (F := Ideal)) (launchContents m d) (Proc.devRef .tc main_arg4) = m ((d.tc : Thread nD τ).loc main_arg4) := by
  after_results_simp

end Cert.ReferenceIdeal.RefResult

end
-- ==== Proof.PreRange.lean ====
/-
  The precondition, read: every relation-type word lies in [0, 500).

  The printed precondition is one bit: the conjunction of three "every entry is finite" tests on the float inputs with
  "every type word is ≥ 0 as a signed word" and "every type word is < 500 as a signed word", each a compare reduced by
  `and` over the whole [1, 300000] array from the bit one. That the bit is one gives both signed bounds at every edge,
  and a signed word in [0, 500) is the natural number below 500 its bits spell.
-/
import proofs.«411763_j66984309949054_1_alg».proof.Pre_finite_inputs
import proofs.«411763_j66984309949054_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Range

open Cert.Pre_finite_inputs Cert.Pre_finite_inputs.Gen Idealize.ShloMosaic Idealize.ShloMosaic.ValueIdx

/-- The scalar shape has exactly one index, so a reduction over every axis has one result. -/
local instance scalarIdxSubsingleton : Subsingleton S_.Idx := ⟨fun a b => funext fun d => d.elim0⟩

/-- A 32-bit word that, read signed, is at least 0 and below 500 is below 500 read unsigned: were its top bit set its
    signed reading would be its unsigned reading less 2³², a negative number. -/
theorem toNat_lt_of_signed (w : BitVec 32) (h0 : (0#32 : BitVec 32).toInt ≤ w.toInt)
    (h1 : w.toInt < (500#32 : BitVec 32).toInt) : w.toNat < 500 := by
  have z : (0#32 : BitVec 32).toInt = 0 := by decide
  have f : (500#32 : BitVec 32).toInt = 500 := by decide
  rw [z] at h0
  rw [f] at h1
  have hw := w.isLt
  rw [BitVec.toInt_eq_toNat_cond] at h0 h1
  split at h0 <;> omega

/-- Where the precondition holds, every relation-type word is below 500 as a natural number. -/
theorem type_in_range (a0 : FVec Ideal S100000x512 .f32) (a1 : IVec S2x300000 32) (a2 : IVec S1x300000 32)
    (a3 : FVec Ideal S256x512 .f32) (a4 : FVec Ideal S500x256 .f32)
    (h : Cert.Pre_finite_inputs.fn (F := Ideal) a0 a1 a2 a3 a4 = fun _ => 1#1) :
    ∀ e : Fin 300000, (a2 (ix2 (0 : Fin 1) e)).toNat < 500 := by
  intro e
  -- the one bit, at the one scalar index, is the conjunction of the five tests
  have h0 := congrFun h ValueIdx.ix0
  dsimp only [fn, fn_part1] at h0
  -- the last conjunct is "every word < 500", the one before it "every word ≥ 0"
  obtain ⟨h1, hlt⟩ := IntOp.andi_eq_one.1 h0
  obtain ⟨_, hge⟩ := IntOp.andi_eq_one.1 h1
  -- a reduction by `and` that came out 1 met a 1 at every entry, in particular at (0, e)
  have hge' := Host.reduce_andi_all _ _ _ _ _ hge (ix2 (0 : Fin 1) e)
  have hlt' := Host.reduce_andi_all _ _ _ _ _ hlt (ix2 (0 : Fin 1) e)
  -- at an entry the compare is the word compare against the broadcast constant
  have hge'' : IntOp.cmpi .sge (a2 (ix2 (0 : Fin 1) e)) 0#32 = 1#1 := hge'
  have hlt'' : IntOp.cmpi .slt (a2 (ix2 (0 : Fin 1) e)) 500#32 = 1#1 := hlt'
  exact toNat_lt_of_signed _ (IntOp.cmpi_sge.1 hge'') (IntOp.cmpi_slt.1 hlt'')

end Cert.Pre_finite_inputs.Range

end
-- ==== Proof.lean ====
/-
  Two programs score the edges of a graph against relation types and agree.

  Each node has a 512-dimensional embedding; a linear map projects it onto 256 basis directions. An edge's vector is
  its head node's projection minus its tail node's, the rows fetched by index as `jnp.take` fetches them. Each edge also
  names one of 500 relation types, and its score is the inner product of its vector with that relation's basis vector.

  The kernel computes the projection in a pipelined region of 50 row blocks, fetches and subtracts on the host, and in
  a second pipelined region of 147 row blocks forms every edge's scores against all 500 relations and keeps the one whose
  lane number equals the edge's type word, by a masked sum over the lanes. The reference computes the projection and all
  the scores with two whole matrix products and reads, for each edge, the entry its type word indexes. On the extended
  reals the matrix products are the same sums, the row fetches are the same chain of operations applied to the same
  projection, and a masked sum over 500 lanes with exactly one lane kept is that lane's value, adding zeros changing
  nothing; so no finiteness of the inputs is used. What IS used is that every type word lies in [0, 500): outside that
  range no lane matches and the kernel's sum is zero, while the reference's index wraps or clamps to a real column. The
  precondition states that range, and it is the one place the precondition is opened.

  The frames of the two kernel programs are the generated ones; the reference's frame is its run with the result dropped.
-/
import proofs.«411763_j66984309949054_1_alg».proof.Defs
import proofs.«411763_j66984309949054_1_alg».proof.Proof.Gen.Kernel
import proofs.«411763_j66984309949054_1_alg».proof.Proof.Gen.Kernel.Frame
import proofs.«411763_j66984309949054_1_alg».proof.Proof.Gen.KernelIdeal
import proofs.«411763_j66984309949054_1_alg».proof.Proof.Gen.KernelIdeal.Frame
import proofs.«411763_j66984309949054_1_alg».proof.Proof.Gen.ReferenceIdeal
import proofs.«411763_j66984309949054_1_alg».proof.Proof.Gen.Pre_finite_inputs
import proofs.«411763_j66984309949054_1_alg».proof.Proof.Spec
import proofs.«411763_j66984309949054_1_alg».proof.Proof.KRun
import proofs.«411763_j66984309949054_1_alg».proof.Proof.KHost
import proofs.«411763_j66984309949054_1_alg».proof.Proof.RRun
import proofs.«411763_j66984309949054_1_alg».proof.Proof.RValue
import proofs.«411763_j66984309949054_1_alg».proof.Proof.RResult
import proofs.«411763_j66984309949054_1_alg».proof.Proof.PreRange
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, keeping of the final buffers only the arguments. -/
theorem frame_reference : Cert.frame_ReferenceIdeal := fun m ρ _ =>
  (θ_run Cert.ReferenceIdeal.defs _ _).mono
    (fun _ h c => ⟨(h c Cert.ReferenceIdeal.main_arg0).trans (Cert.ReferenceIdeal.RefResult.arg0_eq m c),
      (h c Cert.ReferenceIdeal.main_arg1).trans (Cert.ReferenceIdeal.RefResult.arg1_eq m c),
      (h c Cert.ReferenceIdeal.main_arg2).trans (Cert.ReferenceIdeal.RefResult.arg2_eq m c),
      (h c Cert.ReferenceIdeal.main_arg3).trans (Cert.ReferenceIdeal.RefResult.arg3_eq m c),
      (h c Cert.ReferenceIdeal.main_arg4).trans (Cert.ReferenceIdeal.RefResult.arg4_eq m c)⟩)
    (Cert.ReferenceIdeal.HandRun.run (F := Ideal) m ρ)

/-- The ideal pass rewrote nothing, so there is nothing to preserve. -/
theorem preserves : Cert.preserves_Kernel_KernelIdeal := trivial

/-- Both idealized programs end with the specification of the arguments in their result arrays: the kernel by reading
    its run back (KHost), the reference by reading its term (RValue); the precondition gives the type words' range. -/
theorem algebraic : Cert.algebraic_KernelIdeal_ReferenceIdeal := by
  intro m ρ m' ρ' hpre hagree
  have hty : ∀ (c : Dev Cert.KernelIdeal.nD) (e : Fin 300000),
      (m ((c.tc : Thread Cert.KernelIdeal.nD Cert.KernelIdeal.τ).loc Cert.KernelIdeal.main_arg2) (ix2 (0 : Fin 1) e)).toNat < 500 :=
    fun c => Cert.Pre_finite_inputs.Range.type_in_range _ _ _ _ _ (hpre c)
  refine ⟨fun c => Cert.EdgeScore.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.HostValue.kernel_value m ρ c (hty c)), (h c).2⟩)
      (Cert.KernelIdeal.ResultRun.run_result (F := Ideal) m ρ)
  · refine (θ_run Cert.ReferenceIdeal.defs _ _).mono (fun _ h c => ⟨?_,
        (h c Cert.ReferenceIdeal.main_arg0).trans (Cert.ReferenceIdeal.RefResult.arg0_eq m' c),
        (h c Cert.ReferenceIdeal.main_arg1).trans (Cert.ReferenceIdeal.RefResult.arg1_eq m' c),
        (h c Cert.ReferenceIdeal.main_arg2).trans (Cert.ReferenceIdeal.RefResult.arg2_eq m' c),
        (h c Cert.ReferenceIdeal.main_arg3).trans (Cert.ReferenceIdeal.RefResult.arg3_eq m' c),
        (h c Cert.ReferenceIdeal.main_arg4).trans (Cert.ReferenceIdeal.RefResult.arg4_eq m' c)⟩)
      (Cert.ReferenceIdeal.HandRun.run (F := Ideal) m' ρ')
    obtain ⟨e0, e1, e2, e3, e4⟩ := hagree c
    rw [h c Cert.ReferenceIdeal.main_v25, Cert.ReferenceIdeal.RefResult.result_eq m' c, e0, e1, e2, e3, e4]
    exact Cert.ReferenceIdeal.RefValue.refTerm_eq _ _ _ _ _ (hty c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
